-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S8x64 : Shape := ⟨2, ![8, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x1 .f32) (main_arg11 : FVec F S1 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x32 .f32) (main_arg6 : FVec F S32 .f32) (main_arg7 : FVec F S64x32 .f32) (main_arg8 : FVec F S32x16 .f32) (main_arg9 : FVec F S16 .f32) (main_arg10 : FVec F S16x1 .f32) (main_arg11 : FVec F S1 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x8 .f32) (main_arg1 : IVec S2x3200000 32) (main_arg2 : FVec F S8x64 .f32) (main_arg3 : FVec F S64 .f32) (main_arg4 : FVec F S8x64 .f32) (main_arg5 : FVec F S64x32 .f32) (main_arg6 : FVec F S32 .f32) (main_arg7 : FVec F S64x32 .f32) (main_arg8 : FVec F S32x16 .f32) (main_arg9 : FVec F S16 .f32) (main_arg10 : FVec F S16x1 .f32) (main_arg11 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_arg7 main_arg8 main_arg9 main_arg10 main_arg11 main_v13 main_v16
-- ==== Kernel.lean ====
abbrev S100000x8 : Shape := ⟨2, ![100000, 8]⟩
abbrev S2x3200000 : Shape := ⟨2, ![2, 3200000]⟩
abbrev S8x64 : Shape := ⟨2, ![8, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x8 : Shape := ⟨2, ![3200000, 8]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S10000x8 : Shape := ⟨2, ![10000, 8]⟩
abbrev S10000x64 : Shape := ⟨2, ![10000, 64]⟩
abbrev S3200000x64 : Shape := ⟨2, ![3200000, 64]⟩
abbrev S1x32 : Shape := ⟨2, ![1, 32]⟩
abbrev S1x16 : Shape := ⟨2, ![1, 16]⟩
abbrev S1x1 : Shape := ⟨2, ![1, 1]⟩
abbrev S10000x1 : Shape := ⟨2, ![10000, 1]⟩
abbrev S10000x32 : Shape := ⟨2, ![10000, 32]⟩
abbrev S10000x16 : Shape := ⟨2, ![10000, 16]⟩

abbrev nBuf : Space → Nat
  | .hbm => 73
  | .vmem => 22
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S8x64, .f32⟩
  | .hbm, ⟨3, _⟩ => ⟨S64, .f32⟩
  | .hbm, ⟨4, _⟩ => ⟨S8x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x8, .f32⟩
  | .hbm, ⟨25, _⟩ => ⟨S_, .f32⟩
  | .hbm, ⟨26, _⟩ => ⟨S100000x8, .f32⟩
  | .hbm, ⟨27, _⟩ => ⟨S3200000x1, .i32⟩
  | .hbm, ⟨28, _⟩ => ⟨S100000x8, .f32⟩
  | .hbm, ⟨29, _⟩ => ⟨S_, .f32⟩
  | .hbm, ⟨30, _⟩ => ⟨S3200000, .f32⟩
  | .hbm, ⟨31, _⟩ => ⟨S_, .f32⟩
  | .hbm, ⟨32, _⟩ => ⟨S100000, .f32⟩
  | .hbm, ⟨33, _⟩ => ⟨S3200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x8, .f32⟩
  | .hbm, ⟨40, _⟩ => ⟨S100000x8, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .f32⟩
  | .hbm, ⟨52, _⟩ => ⟨S_, .f32⟩
  | .hbm, ⟨53, _⟩ => ⟨S100000x64, .f32⟩
  | .hbm, ⟨54, _⟩ => ⟨S3200000x1, .i32⟩
  | .hbm, ⟨55, _⟩ => ⟨S100000x64, .f32⟩
  | .hbm, ⟨56, _⟩ => ⟨S_, .f32⟩
  | .hbm, ⟨57, _⟩ => ⟨S3200000, .f32⟩
  | .hbm, ⟨58, _⟩ => ⟨S_, .f32⟩
  | .hbm, ⟨59, _⟩ => ⟨S100000, .f32⟩
  | .hbm, ⟨60, _⟩ => ⟨S3200000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x32, .f32⟩
  | .hbm, ⟨69, _⟩ => ⟨S1x16, .f32⟩
  | .hbm, ⟨70, _⟩ => ⟨S1x1, .f32⟩
  | .hbm, ⟨71, _⟩ => ⟨S100000x1, .f32⟩
  | .hbm, ⟨72, _⟩ => ⟨S100000, .f32⟩
  | .local _ .vmem, ⟨0, _⟩ => ⟨S10000x8, .f32⟩
  | .local _ .vmem, ⟨1, _⟩ => ⟨S10000x8, .f32⟩
  | .local _ .vmem, ⟨2, _⟩ => ⟨S10000x8, .f32⟩
  | .local _ .vmem, ⟨3, _⟩ => ⟨S10000x8, .f32⟩
  | .local _ .vmem, ⟨4, _⟩ => ⟨S8x64, .f32⟩
  | .local _ .vmem, ⟨5, _⟩ => ⟨S1x64, .f32⟩
  | .local _ .vmem, ⟨6, _⟩ => ⟨S8x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S32x16, .f32⟩
  | .local _ .vmem, ⟨17, _⟩ => ⟨S1x16, .f32⟩
  | .local _ .vmem, ⟨18, _⟩ => ⟨S16x1, .f32⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  shapeCasts_S64_S1x64 : S64.ShapeCasts S1x64
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S16_S1x16 : S16.ShapeCasts S1x16
  shapeCasts_S1_S1x1 : S1.ShapeCasts S1x1
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S10000x8_S8x64_S10000x64_1_0_0_1_n_n_wf : DotDims.WF S10000x8 S8x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S100000x8.size a
  hwx0_1 : ∀ i : grid0.Coords, EltTy.bits .f32 = 32 ∨ (Rect.block (s := S100000x8) S10000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x16.size a ≤ S32x16.size a
  hwx1_5 : ∀ i : grid1.Coords, EltTy.bits .f32 = 32 ∨ (Rect.block (s := S32x16) S32x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x1.size a ≤ S16x1.size a
  hwx1_7 : ∀ i : grid1.Coords, EltTy.bits .f32 = 32 ∨ (Rect.block (s := S16x1) S16x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x1.size a ≤ S100000x1.size a
  hwx1_9 : ∀ i : grid1.Coords, EltTy.bits .f32 = 32 ∨ (Rect.block (s := S100000x1) S10000x1.size (cc1_transform_9 i) (hinb1_9 i)).WholeWords (EltTy.packing .f32)

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x8_S8x64_S10000x64_1_0_0_1_n_n : DotDims S10000x8 S8x64 S10000x64 where
  lhsContracting := [1]
  rhsContracting := [0]
  lhsNonContracting := [0]
  rhsNonContracting := [1]
  lhsBatch := []
  rhsBatch := []
  wf := dot_S10000x8_S8x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v22) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S16x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S10000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S8x64 : Shape := ⟨2, ![8, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x8 : Shape := ⟨2, ![3200000, 8]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S1x1 : Shape := ⟨2, ![1, 1]⟩
abbrev S100000 : Shape := ⟨1, ![100000]⟩

abbrev nBuf : Space → Nat
  | .hbm => 102
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S8x64, .f32⟩
  | .hbm, ⟨3, _⟩ => ⟨S64, .f32⟩
  | .hbm, ⟨4, _⟩ => ⟨S8x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x8, .f32⟩
  | .hbm, ⟨25, _⟩ => ⟨S_, .f32⟩
  | .hbm, ⟨26, _⟩ => ⟨S100000x8, .f32⟩
  | .hbm, ⟨27, _⟩ => ⟨S3200000x1, .i32⟩
  | .hbm, ⟨28, _⟩ => ⟨S100000x8, .f32⟩
  | .hbm, ⟨29, _⟩ => ⟨S_, .f32⟩
  | .hbm, ⟨30, _⟩ => ⟨S3200000x1, .f32⟩
  | .hbm, ⟨31, _⟩ => ⟨S_, .f32⟩
  | .hbm, ⟨32, _⟩ => ⟨S100000x1, .f32⟩
  | .hbm, ⟨33, _⟩ => ⟨S3200000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x8, .f32⟩
  | .hbm, ⟨39, _⟩ => ⟨S100000x8, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S_, .f32⟩
  | .hbm, ⟨63, _⟩ => ⟨S3200000x1, .f32⟩
  | .hbm, ⟨64, _⟩ => ⟨S_, .f32⟩
  | .hbm, ⟨65, _⟩ => ⟨S100000x1, .f32⟩
  | .hbm, ⟨66, _⟩ => ⟨S3200000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S100000x32, .f32⟩
  | .hbm, ⟨79, _⟩ => ⟨S_, .f32⟩
  | .hbm, ⟨80, _⟩ => ⟨S100000x32, .f32⟩
  | .hbm, ⟨81, _⟩ => ⟨S100000x32, .f32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | .hbm, ⟨86, _⟩ => ⟨S_, .f32⟩
  | .hbm, ⟨87, _⟩ => ⟨S100000x16, .f32⟩
  | .hbm, ⟨88, _⟩ => ⟨S100000x16, .f32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | .hbm, ⟨101, _⟩ => ⟨S100000, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x8_0_1 : S100000x1.BroadcastsInDim S100000x8 (![0, 1] : Fin 2 → Fin S100000x8.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000x1_S3200000x1_S3200000x1_1_0_0_1_wf : ScatterDims.WF S100000x1 S3200000x1 S3200000x1 [1] [0] [0] 1
  dot_S100000x8_S8x64_S100000x64_1_0_0_1_n_n_wf : DotDims.WF S100000x8 S8x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelChain.lean ====
/-
  The kernel program's host arithmetic around its two launches, named once: the edge list's two rows as vectors,
  the source row with negative entries wrapped once by the node count, each node's incoming-edge count floored at
  one, and the mean aggregation of a feature matrix (8 or 64 columns) — the gathered source rows summed into their
  destination rows, each row divided by its count.
-/
import proofs.«146979_j84439057039711_1_alg».proof.Proof.Gen.KernelIdeal

noncomputable section

namespace Cert.KernelIdeal.Chain

open Idealize.ShloMosaic Cert.KernelIdeal Cert.KernelIdeal.Facts₀ Cert.KernelIdeal.Facts

variable {F : FTy → Type} [FloatOps F]

/-- The edges' source endpoints: row 0 of the edge list. -/
def src (x1 : (⟨S2x3200000, .i32⟩ : BufTy).Contents (Elt F)) : (⟨S3200000, .i32⟩ : BufTy).Contents (Elt F) :=
  shapeCast _ (extractStridedSlice S1x3200000 ![0, 0] x1 slices_S2x3200000_S1x3200000_0_0) shapeCasts_S1x3200000_S3200000

/-- The edges' destination endpoints: row 1 of the edge list. -/
def dst (x1 : (⟨S2x3200000, .i32⟩ : BufTy).Contents (Elt F)) : (⟨S3200000, .i32⟩ : BufTy).Contents (Elt F) :=
  shapeCast _ (extractStridedSlice S1x3200000 ![1, 0] x1 slices_S2x3200000_S1x3200000_1_0) shapeCasts_S1x3200000_S3200000

/-- The source endpoints with a negative entry moved up by the node count, as a column of gather starts. -/
def srcStarts (x1 : (⟨S2x3200000, .i32⟩ : BufTy).Contents (Elt F)) : (⟨S3200000x1, .i32⟩ : BufTy).Contents (Elt F) :=
  broadcastInDim S3200000x1 ![0] bcast_S3200000_S3200000x1_0
    (select (cmpi .slt (src (F := F) x1) (broadcastInDim S3200000 ![] bcast_S_S3200000 (constantI S_ 32 0#32)))
      (addi (src (F := F) x1) (broadcastInDim S3200000 ![] bcast_S_S3200000 (constantI S_ 32 100000#32))) (src (F := F) x1))

/-- The destination endpoints as a column of scatter starts. -/
def dstStarts (x1 : (⟨S2x3200000, .i32⟩ : BufTy).Contents (Elt F)) : (⟨S3200000x1, .i32⟩ : BufTy).Contents (Elt F) :=
  broadcastInDim S3200000x1 ![0] bcast_S3200000_S3200000x1_0 (dst (F := F) x1)

/-- Each node's number of incoming edges, at least one: ones summed into their destinations, floored at one. -/
def count (x1 : (⟨S2x3200000, .i32⟩ : BufTy).Contents (Elt F)) : (⟨S100000, .f32⟩ : BufTy).Contents (Elt F) :=
  maximumf
    (Host.scatterAdd scatter_S100000_S3200000x1_S3200000_n_0_0_1
      (broadcastInDim S100000 ![] bcast_S_S100000 (constant S_ .f32 0x00000000#32)) (dstStarts (F := F) x1)
      (broadcastInDim S3200000 ![] bcast_S_S3200000 (constant S_ .f32 0x3F800000#32)))
    (broadcastInDim S100000 ![] bcast_S_S100000 (constant S_ .f32 0x3F800000#32))

/-- The mean of each node's incoming neighbours' 8 features. -/
def agg8 (x : (⟨S100000x8, .f32⟩ : BufTy).Contents (Elt F)) (x1 : (⟨S2x3200000, .i32⟩ : BufTy).Contents (Elt F)) : (⟨S100000x8, .f32⟩ : BufTy).Contents (Elt F) :=
  Host.divf
    (Host.scatterAdd scatter_S100000x8_S3200000x1_S3200000x8_1_0_0_1
      (broadcastInDim S100000x8 ![] bcast_S_S100000x8 (constant S_ .f32 0x00000000#32)) (dstStarts (F := F) x1)
      (Host.gather gather_S100000x8_S3200000x1_S3200000x8_1_0_n_n_0_1_18 x (srcStarts (F := F) x1)))
    (broadcastInDim S100000x8 ![0, 1] bcast_S100000x1_S100000x8_0_1
      (broadcastInDim S100000x1 ![0] bcast_S100000_S100000x1_0 (count (F := F) x1)))

/-- The mean of each node's incoming neighbours' 64 hidden features. -/
def agg64 (h : (⟨S100000x64, .f32⟩ : BufTy).Contents (Elt F)) (x1 : (⟨S2x3200000, .i32⟩ : BufTy).Contents (Elt F)) : (⟨S100000x64, .f32⟩ : BufTy).Contents (Elt F) :=
  Host.divf
    (Host.scatterAdd scatter_S100000x64_S3200000x1_S3200000x64_1_0_0_1
      (broadcastInDim S100000x64 ![] bcast_S_S100000x64 (constant S_ .f32 0x00000000#32)) (dstStarts (F := F) x1)
      (Host.gather gather_S100000x64_S3200000x1_S3200000x64_1_0_n_n_0_1_164 h (srcStarts (F := F) x1)))
    (broadcastInDim S100000x64 ![0, 1] bcast_S100000x1_S100000x64_0_1
      (broadcastInDim S100000x1 ![0] bcast_S100000_S100000x1_0 (count (F := F) x1)))

end Cert.KernelIdeal.Chain

end
-- ==== Proof.LibScatterCount.lean ====
/-
  A general fact about the host's accumulating scatter at the exact instance: scattering a vector of updates
  into a vector along its one axis, and scattering the same updates laid out as a one-column matrix into a
  one-column matrix along its row axis (the column a window axis of extent one), accumulate the same entries.
  Row `n` of the column result is entry `n` of the vector result: update `(e, 0)` lands on `(n, 0)` exactly when
  update `e` lands on `n`, both reading the same signed start word `idx (e, 0)`, so the two filtered sums run
  over index sets in bijection `e ↦ (e, 0)` with equal summands.
  Stated at the extents 100000 (segments) and 3200000 (updates); it imports only the library.
-/
import Idealize.ShloMosaic.PureOps.Ideal.Laws
import Idealize.ShloMosaic.Lib.ValueIdx

noncomputable section

namespace ScatterCount

open Idealize.ShloMosaic Idealize.ShloMosaic.ValueIdx

/-- The segment vector's shape, `[100000]`. -/
abbrev segVec : Shape := ⟨1, ![100000]⟩
/-- The segment column's shape, `[100000, 1]`. -/
abbrev segCol : Shape := ⟨2, ![100000, 1]⟩
/-- The shape `[3200000, 1]`: of the index words, and of the updates laid out as a column. -/
abbrev updCol : Shape := ⟨2, ![3200000, 1]⟩
/-- The update vector's shape, `[3200000]`. -/
abbrev updVec : Shape := ⟨1, ![3200000]⟩

/-- The vector scatter's dimension numbers: no window axis, operand axis 0 inserted and named by the one index component. -/
abbrev vecDims (wfv : ScatterDims.WF segVec updCol updVec [] [0] [0] 1) : ScatterDims segVec updCol updVec := ⟨[], [0], [0], 1, wfv⟩
/-- The column scatter's dimension numbers: the updates' axis 1 a window axis that goes to operand axis 1, operand axis 0
    inserted and named by the one index component. -/
abbrev colDims (wfc : ScatterDims.WF segCol updCol updCol [1] [0] [0] 1) : ScatterDims segCol updCol updCol := ⟨[1], [0], [0], 1, wfc⟩

/-- In the vector scatter the start of update `j` on the one operand axis is its signed index word `idx (j 0, 0)`. -/
theorem vecDims_start (wfv : ScatterDims.WF segVec updCol updVec [] [0] [0] 1) (idx : IVec updCol 32) (j : updVec.Idx) (a : Fin 1) :
    (vecDims wfv).start j idx a = (idx (ix2 (j 0) (0 : Fin 1))).toInt := by
  obtain rfl : a = 0 := Subsingleton.elim _ _
  unfold ScatterDims.start
  rw [dif_pos (show (0 : Fin 1) ∈ (vecDims wfv).scatterDimsToOperandDims from List.mem_singleton.mpr rfl)]
  congr 2
  funext b
  refine Fin.ext ?_
  match b with
  | ⟨0, _⟩ => rfl
  | ⟨1, _⟩ => rfl

/-- The vector scatter has no window axis: every window coordinate is `0`. -/
theorem vecDims_window (wfv : ScatterDims.WF segVec updCol updVec [] [0] [0] 1) (j : updVec.Idx) (a : Fin 1) :
    (vecDims wfv).window j a = 0 := by
  obtain rfl : a = 0 := Subsingleton.elim _ _
  unfold ScatterDims.window
  rw [dif_neg (show ¬ (0 : Fin 1) ∈ segVec.kept [0] from by decide)]

/-- In the column scatter the start of update `j` on the row axis is its signed index word `idx (j 0, 0)`. -/
theorem colDims_start_row (wfc : ScatterDims.WF segCol updCol updCol [1] [0] [0] 1) (idx : IVec updCol 32) (j : updCol.Idx) :
    (colDims wfc).start j idx 0 = (idx (ix2 (j 0) (0 : Fin 1))).toInt := by
  unfold ScatterDims.start
  rw [dif_pos (show (0 : Fin 2) ∈ (colDims wfc).scatterDimsToOperandDims from List.mem_singleton.mpr rfl)]
  congr 2
  funext b
  refine Fin.ext ?_
  match b with
  | ⟨0, _⟩ => rfl
  | ⟨1, _⟩ => rfl

/-- In the column scatter the column axis is not named by the index vector: its start is `0`. -/
theorem colDims_start_col (wfc : ScatterDims.WF segCol updCol updCol [1] [0] [0] 1) (idx : IVec updCol 32) (j : updCol.Idx) :
    (colDims wfc).start j idx 1 = 0 := by
  unfold ScatterDims.start
  rw [dif_neg (show ¬ (1 : Fin 2) ∈ ([0] : List (Fin 2)) from by decide)]

/-- In the column scatter the row axis is an inserted axis: its window coordinate is `0`. -/
theorem colDims_window_row (wfc : ScatterDims.WF segCol updCol updCol [1] [0] [0] 1) (j : updCol.Idx) :
    (colDims wfc).window j 0 = 0 := by
  unfold ScatterDims.window
  rw [dif_neg (show ¬ (0 : Fin 2) ∈ segCol.kept [0] from by decide)]

/-- In the column scatter the window coordinate on the column axis is the update's own column, which is `0` in an axis of
    extent one. -/
theorem colDims_window_col (wfc : ScatterDims.WF segCol updCol updCol [1] [0] [0] 1) (j : updCol.Idx) :
    (colDims wfc).window j 1 = 0 := by
  unfold ScatterDims.window
  rw [dif_pos (show (1 : Fin 2) ∈ segCol.kept [0] from by decide)]
  have h1 : ∀ k : Fin 1, k.val = 0 := fun k => by omega
  exact h1 _

/-- The vector record lands update `j` on entry `n` exactly when its signed start word is `n`. -/
theorem vecDims_resultIdx_iff (wfv : ScatterDims.WF segVec updCol updVec [] [0] [0] 1) (idx : IVec updCol 32) (j : updVec.Idx) (n : Fin 100000) :
    (vecDims wfv).resultIdx? j idx = some (ix1 n) ↔ (idx (ix2 (j 0) (0 : Fin 1))).toInt = (n.val : Int) := by
  have hn : n.val < 100000 := n.isLt
  unfold ScatterDims.resultIdx?
  split_ifs with h
  · have h0 := h 0
    rw [vecDims_start, vecDims_window] at h0
    rw [Option.some.injEq]
    constructor
    · intro he
      have := congrArg (fun f => (f 0).val) he
      simp only [vecDims_start, vecDims_window] at this
      change ((idx (ix2 (j 0) (0 : Fin 1))).toInt + ((0 : Nat) : Int)).toNat = n.val at this
      omega
    · intro hs
      funext a
      obtain rfl : a = 0 := Subsingleton.elim _ _
      refine Fin.ext ?_
      simp only [vecDims_start, vecDims_window]
      change ((idx (ix2 (j 0) (0 : Fin 1))).toInt + ((0 : Nat) : Int)).toNat = n.val
      omega
  · constructor
    · intro he; exact absurd he (by simp)
    · intro hs
      exfalso; apply h
      intro a
      obtain rfl : a = 0 := Subsingleton.elim _ _
      rw [vecDims_start, vecDims_window]
      change 0 ≤ (idx (ix2 (j 0) (0 : Fin 1))).toInt + ((0 : Nat) : Int) ∧ (idx (ix2 (j 0) (0 : Fin 1))).toInt + ((0 : Nat) : Int) < ((100000 : Nat) : Int)
      omega

/-- The column record lands update `j` on entry `(n, 0)` exactly when its signed start word is `n`. -/
theorem colDims_resultIdx_iff (wfc : ScatterDims.WF segCol updCol updCol [1] [0] [0] 1) (idx : IVec updCol 32) (j : updCol.Idx) (n : Fin 100000) :
    (colDims wfc).resultIdx? j idx = some (ix2 n (0 : Fin 1)) ↔ (idx (ix2 (j 0) (0 : Fin 1))).toInt = (n.val : Int) := by
  have hn : n.val < 100000 := n.isLt
  unfold ScatterDims.resultIdx?
  split_ifs with h
  · have h0 := h 0
    rw [colDims_start_row, colDims_window_row] at h0
    rw [Option.some.injEq]
    constructor
    · intro he
      have := congrArg (fun f => (f 0).val) he
      simp only [colDims_start_row, colDims_window_row] at this
      change ((idx (ix2 (j 0) (0 : Fin 1))).toInt + ((0 : Nat) : Int)).toNat = n.val at this
      omega
    · intro hs
      funext a
      refine Fin.ext ?_
      match a with
      | ⟨0, _⟩ =>
        change ((colDims wfc).start j idx 0 + ((colDims wfc).window j 0 : Int)).toNat = n.val
        rw [colDims_start_row, colDims_window_row]
        omega
      | ⟨1, _⟩ =>
        change ((colDims wfc).start j idx 1 + ((colDims wfc).window j 1 : Int)).toNat = 0
        rw [colDims_start_col, colDims_window_col]
        rfl
  · constructor
    · intro he; exact absurd he (by simp)
    · intro hs
      exfalso; apply h
      intro a
      match a with
      | ⟨0, _⟩ =>
        change 0 ≤ (colDims wfc).start j idx 0 + ((colDims wfc).window j 0 : Int) ∧ (colDims wfc).start j idx 0 + ((colDims wfc).window j 0 : Int) < ((100000 : Nat) : Int)
        rw [colDims_start_row, colDims_window_row]
        omega
      | ⟨1, _⟩ =>
        change 0 ≤ (colDims wfc).start j idx 1 + ((colDims wfc).window j 1 : Int) ∧ (colDims wfc).start j idx 1 + ((colDims wfc).window j 1 : Int) < ((1 : Nat) : Int)
        rw [colDims_start_col, colDims_window_col]
        omega

/-- The column scatter at `(n, 0)` is the vector scatter at `n`, for operands and updates that agree entry by entry. -/
theorem scatterAdd_column_eq_vector
    (wfv : ScatterDims.WF (⟨1, ![100000]⟩ : Shape) (⟨2, ![3200000, 1]⟩ : Shape) (⟨1, ![3200000]⟩ : Shape) [] [0] [0] 1)
    (wfc : ScatterDims.WF (⟨2, ![100000, 1]⟩ : Shape) (⟨2, ![3200000, 1]⟩ : Shape) (⟨2, ![3200000, 1]⟩ : Shape) [1] [0] [0] 1)
    (idx : IVec (⟨2, ![3200000, 1]⟩ : Shape) 32)
    (xv : FVec Ideal (⟨1, ![100000]⟩ : Shape) .f32) (xc : FVec Ideal (⟨2, ![100000, 1]⟩ : Shape) .f32)
    (uv : FVec Ideal (⟨1, ![3200000]⟩ : Shape) .f32) (uc : FVec Ideal (⟨2, ![3200000, 1]⟩ : Shape) .f32)
    (hx : ∀ n : Fin 100000, xc (ix2 n (0 : Fin 1)) = xv (ix1 n))
    (hu : ∀ e : Fin 3200000, uc (ix2 e (0 : Fin 1)) = uv (ix1 e))
    (n : Fin 100000) :
    Host.scatterAdd (F := Ideal) (⟨[1], [0], [0], 1, wfc⟩ : ScatterDims (⟨2, ![100000, 1]⟩ : Shape) (⟨2, ![3200000, 1]⟩ : Shape) (⟨2, ![3200000, 1]⟩ : Shape)) xc idx uc (ix2 n (0 : Fin 1))
      = Host.scatterAdd (F := Ideal) (⟨[], [0], [0], 1, wfv⟩ : ScatterDims (⟨1, ![100000]⟩ : Shape) (⟨2, ![3200000, 1]⟩ : Shape) (⟨1, ![3200000]⟩ : Shape)) xv idx uv (ix1 n) := by
  have hj : ∀ j : updCol.Idx, j = ix2 (j 0) (0 : Fin 1) := fun j => by
    have h1 : (j 1).val = 0 := by
      have : (j 1).val < 1 := idx2_lt1 j
      omega
    funext a
    match a with
    | ⟨0, _⟩ => rfl
    | ⟨1, _⟩ => exact Fin.ext h1
  unfold Host.scatterAdd
  rw [Ideal.hostScatterAdd_def, Ideal.hostScatterAdd_def]
  unfold Ideal.hostScatterAdd
  rewrite [hx n]
  refine congrArg _ ?_
  refine Finset.sum_nbij' (fun j => ix1 (j 0)) (fun k => ix2 (k 0) (0 : Fin 1)) ?_ ?_ ?_ ?_ ?_
  · intro j hjm
    rw [Finset.mem_filter] at hjm ⊢
    exact ⟨Finset.mem_univ _, (vecDims_resultIdx_iff wfv idx _ n).mpr ((colDims_resultIdx_iff wfc idx j n).mp hjm.2)⟩
  · intro k hkm
    rw [Finset.mem_filter] at hkm ⊢
    exact ⟨Finset.mem_univ _, (colDims_resultIdx_iff wfc idx _ n).mpr ((vecDims_resultIdx_iff wfv idx k n).mp hkm.2)⟩
  · intro j _
    exact (hj j).symm
  · intro k _
    exact (eq_ix1 k).symm
  · intro j _
    rw [hj j]
    exact hu (j 0)

end ScatterCount

end
-- ==== Proof.AggBridge.lean ====
/-
  The two programs' mean aggregations are one function. Both gather the source rows (a negative endpoint wrapped
  once by the node count), sum them into their destination rows and divide each row by its incoming-edge count
  floored at one; they differ only in how the count is laid out: the kernel's program counts into a vector and
  widens it to a column, the reference counts into a one-column matrix. Row `n` of either count is the same sum
  of ones over the edges landing on `n`, so the quotients agree entry by entry.
-/
import proofs.«146979_j84439057039711_1_alg».proof.Proof.KernelChain
import proofs.«146979_j84439057039711_1_alg».proof.Proof.LibScatterCount
import proofs.«146979_j84439057039711_1_alg».proof.Proof.Gen.ReferenceIdeal.Read
import Idealize.ShloMosaic.Lib.ValueIdx
import Idealize.ShloMosaic.Lib.Pipeline.Value

noncomputable section

namespace Cert.AggBridge

open Idealize.ShloMosaic Idealize.ShloMosaic.ValueIdx

/-- A rank-0 operand's broadcast reads its one entry at every index. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector widened to a column and the column repeated along `m` columns reads, at `(n, j)`, the vector at `n`. -/
theorem bcast_vec_col_apply {m : Nat} {α : Type}
    (h1 : (⟨1, ![100000]⟩ : Shape).BroadcastsInDim (⟨2, ![100000, 1]⟩ : Shape) ![0])
    (h2 : (⟨2, ![100000, 1]⟩ : Shape).BroadcastsInDim (⟨2, ![100000, m]⟩ : Shape) ![0, 1])
    (c : (⟨1, ![100000]⟩ : Shape).Idx → α) (i : (⟨2, ![100000, m]⟩ : Shape).Idx) :
    broadcastInDim (⟨2, ![100000, m]⟩ : Shape) ![0, 1] h2 (broadcastInDim (⟨2, ![100000, 1]⟩ : Shape) ![0] h1 c) i
      = c (ix1 (i 0)) := by
  rw [broadcastInDim_apply _ h2 _ i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ h1 c (ix2 (i 0) (0 : Fin 1)) (ix1 (i 0)) (fun a => match a with
    | ⟨0, _⟩ => by show (i 0).val = if (100000 : Nat) = 1 then 0 else (i 0).val; rw [if_neg (by decide)])

/-- The two programs' destination columns are one function of the edge list. -/
theorem dstStarts_eq_v16 (x1 : (⟨Cert.KernelIdeal.S2x3200000, .i32⟩ : BufTy).Contents (Elt Ideal)) :
    Cert.ReferenceIdeal.Read.val_main_v16 (F := Ideal) x1 = Cert.KernelIdeal.Chain.dstStarts (F := Ideal) x1 := rfl

/-- The pointwise maximum read at an index. -/
theorem maximumf_apply {s : Shape} {φ : FTy} (X Y : FVec Ideal s φ) (j : s.Idx) :
    maximumf X Y j = FloatOps.maximumf (X j) (Y j) := rfl

/-- The maximum of equal arguments. -/
theorem maximumf_congr (a a' b b' : Ideal .f32) (h1 : a = a') (h2 : b = b') :
    FloatOps.maximumf a b = FloatOps.maximumf a' b' := by rw [h1, h2]

/-- Row `n` of the reference's one-column count is entry `n` of the kernel program's count vector. -/
theorem count_eq (x1 : (⟨Cert.KernelIdeal.S2x3200000, .i32⟩ : BufTy).Contents (Elt Ideal)) (n : Fin 100000) :
    Cert.ReferenceIdeal.Read.val_main_v19 (F := Ideal) x1 (ix2 n (0 : Fin 1)) = Cert.KernelIdeal.Chain.count (F := Ideal) x1 (ix1 n) := by
  rw [Cert.ReferenceIdeal.Read.val_main_v19_apply]
  unfold Cert.KernelIdeal.Chain.count
  rw [maximumf_apply]
  refine maximumf_congr _ _ _ _ ?_ ?_
  · unfold Cert.ReferenceIdeal.Read.val_main_v17
    rw [dstStarts_eq_v16]
    refine ScatterCount.scatterAdd_column_eq_vector _ _ _ _ _ _ _ (fun k => ?_) (fun e => ?_) n
    · rw [Cert.ReferenceIdeal.Read.val_main_v15_apply, Cert.ReferenceIdeal.Read.val_main_cst_2_apply, bcast_scalar_apply]; rfl
    · rw [Cert.ReferenceIdeal.Read.val_main_v14_apply, Cert.ReferenceIdeal.Read.val_main_cst_1_apply, bcast_scalar_apply]; rfl
  · rw [Cert.ReferenceIdeal.Read.val_main_v18_apply, Cert.ReferenceIdeal.Read.val_main_cst_3_apply, bcast_scalar_apply]; rfl

/-- The kernel program's aggregation of the node features is the reference's quotient stage. -/
theorem agg8_eq (x0 : (⟨Cert.KernelIdeal.S100000x8, .f32⟩ : BufTy).Contents (Elt Ideal)) (x1 : (⟨Cert.KernelIdeal.S2x3200000, .i32⟩ : BufTy).Contents (Elt Ideal)) :
    Cert.KernelIdeal.Chain.agg8 (F := Ideal) x0 x1 = Cert.ReferenceIdeal.Read.val_main_v21 (F := Ideal) x0 x1 := by
  unfold Cert.KernelIdeal.Chain.agg8 Cert.ReferenceIdeal.Read.val_main_v21
  refine congrArg₂ Host.divf rfl (funext fun i => ?_)
  rw [Cert.ReferenceIdeal.Read.val_main_v20_apply]
  refine (bcast_vec_col_apply _ _ _ i).trans ?_
  have e : Cert.ReferenceIdeal.Read.idx_main_v20 i = ix2 (i 0) (0 : Fin 1) :=
    funext fun a => by match a with | ⟨0, _⟩ => rfl | ⟨1, _⟩ => rfl
  rw [e]
  exact (count_eq x1 (i 0)).symm

/-- The reference's second destination column is the same function of the edge list. -/
theorem dstStarts_eq_v41 (x1 : (⟨Cert.KernelIdeal.S2x3200000, .i32⟩ : BufTy).Contents (Elt Ideal)) :
    Cert.ReferenceIdeal.Read.val_main_v41 (F := Ideal) x1 = Cert.KernelIdeal.Chain.dstStarts (F := Ideal) x1 := rfl

/-- Row `n` of the reference's second one-column count is entry `n` of the kernel program's count vector. -/
theorem count_eq' (x1 : (⟨Cert.KernelIdeal.S2x3200000, .i32⟩ : BufTy).Contents (Elt Ideal)) (n : Fin 100000) :
    Cert.ReferenceIdeal.Read.val_main_v44 (F := Ideal) x1 (ix2 n (0 : Fin 1)) = Cert.KernelIdeal.Chain.count (F := Ideal) x1 (ix1 n) := by
  rw [Cert.ReferenceIdeal.Read.val_main_v44_apply]
  unfold Cert.KernelIdeal.Chain.count
  rw [maximumf_apply]
  refine maximumf_congr _ _ _ _ ?_ ?_
  · unfold Cert.ReferenceIdeal.Read.val_main_v42
    rw [dstStarts_eq_v41]
    refine ScatterCount.scatterAdd_column_eq_vector _ _ _ _ _ _ _ (fun k => ?_) (fun e => ?_) n
    · rw [Cert.ReferenceIdeal.Read.val_main_v40_apply, Cert.ReferenceIdeal.Read.val_main_cst_8_apply, bcast_scalar_apply]; rfl
    · rw [Cert.ReferenceIdeal.Read.val_main_v39_apply, Cert.ReferenceIdeal.Read.val_main_cst_7_apply, bcast_scalar_apply]; rfl
  · rw [Cert.ReferenceIdeal.Read.val_main_v43_apply, Cert.ReferenceIdeal.Read.val_main_cst_9_apply, bcast_scalar_apply]; rfl

/-- The kernel program's aggregation of the reference's own hidden features is the reference's second quotient stage. -/
theorem agg64_eq (x0 : (⟨Cert.KernelIdeal.S100000x8, .f32⟩ : BufTy).Contents (Elt Ideal)) (x1 : (⟨Cert.KernelIdeal.S2x3200000, .i32⟩ : BufTy).Contents (Elt Ideal)) (x2 : (⟨Cert.KernelIdeal.S8x64, .f32⟩ : BufTy).Contents (Elt Ideal))
    (x3 : (⟨Cert.KernelIdeal.S64, .f32⟩ : BufTy).Contents (Elt Ideal)) (x4 : (⟨Cert.KernelIdeal.S8x64, .f32⟩ : BufTy).Contents (Elt Ideal)) :
    Cert.KernelIdeal.Chain.agg64 (F := Ideal) (Cert.ReferenceIdeal.Read.val_main_v28 (F := Ideal) x0 x1 x2 x3 x4) x1
      = Cert.ReferenceIdeal.Read.val_main_v46 (F := Ideal) x0 x1 x2 x3 x4 := by
  unfold Cert.KernelIdeal.Chain.agg64 Cert.ReferenceIdeal.Read.val_main_v46
  refine congrArg₂ Host.divf ?_ (funext fun i => ?_)
  · unfold Cert.ReferenceIdeal.Read.val_main_v38 Cert.ReferenceIdeal.Read.val_main_v35
    generalize Cert.ReferenceIdeal.Read.val_main_v28 (F := Ideal) x0 x1 x2 x3 x4 = h
    rfl
  · rw [Cert.ReferenceIdeal.Read.val_main_v45_apply]
    refine (bcast_vec_col_apply _ _ _ i).trans ?_
    have e : Cert.ReferenceIdeal.Read.idx_main_v45 i = ix2 (i 0) (0 : Fin 1) :=
      funext fun a => by match a with | ⟨0, _⟩ => rfl | ⟨1, _⟩ => rfl
    rw [e]
    exact (count_eq' x1 (i 0)).symm

end Cert.AggBridge

end
-- ==== Proof.Spec.lean ====
/-
  One node's row of the network, as plain sums over extended reals: what both programs compute at a single
  output entry once every matrix product is read as a finite sum and every broadcast as a read of its source.
  A layer's entry is the rectified sum of the aggregated row times the neighbour weights' column, the bias, and
  the node's own row times the root weights' column; the head stacks the second layer, one rectified dense
  layer, one dense unit, and the logistic function.
-/
import Idealize.ShloMosaic.PureOps.Ideal

noncomputable section

namespace SageSpec

open Idealize.ShloMosaic

/-- The zero both programs rectify against, kept as its word so that neither side evaluates it. -/
abbrev zeroWord : EReal := Ideal.ofBits .f32 0x00000000#32

/-- One entry of a layer: `max ((Σₖ aggₖ·wlₖ + b) + Σₖ xₖ·wrₖ) 0`, the sums over the input width `K`. -/
def layerAt {K : Nat} (agg x wl wr : Fin K → EReal) (b : EReal) : EReal :=
  max ((∑ k, agg k * wl k + b) + ∑ k, x k * wr k) zeroWord

/-- One node's output: the logistic function of the dense unit over the rectified dense layer over the second
    layer's 32 entries, themselves `layerAt` over the 64 hidden features. -/
def headAt (agg h : Fin 64 → EReal) (w2l w2r : Fin 64 → Fin 32 → EReal) (b2 : Fin 32 → EReal)
    (wh1 : Fin 32 → Fin 16 → EReal) (bh1 : Fin 16 → EReal) (wh2 : Fin 16 → EReal) (bh2 : EReal) : EReal :=
  Ideal.logistic
    ((∑ i, max ((∑ j, layerAt agg h (fun k => w2l k j) (fun k => w2r k j) (b2 j) * wh1 j i) + bh1 i) zeroWord * wh2 i) + bh2)

end SageSpec

end
-- ==== Proof.Layer1Kernel.lean ====
/-
  The first kernel body's stored value at one entry of its tile: row `r` of the tile, hidden feature `j`.
-/
import proofs.«146979_j84439057039711_1_alg».proof.Proof.Gen.KernelIdeal.Skeleton
import proofs.«146979_j84439057039711_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Idealize.ShloMosaic Idealize.ShloMosaic.ValueIdx Cert.KernelIdeal Cert.KernelIdeal.Gen

/-! ## The matrix product's operand indices

At output index `i` and contraction index `q` the left operand is read at `(i 0, q)` and the right one at
`(q, i 1)`: one lemma per operand and axis. -/

/-- The left operand's row is the output's row. -/
theorem lhs_0 (i : S10000x64.Idx) (q : dot_S10000x8_S8x64_S10000x64_1_0_0_1_n_n.contr.Idx) :
    (dot_S10000x8_S8x64_S10000x64_1_0_0_1_n_n.lhsIdx i q 0).val = (i 0).val := by
  unfold DotDims.lhsIdx
  rw [dif_neg (show ¬(0 : Fin S10000x8.rank) ∈ dot_S10000x8_S8x64_S10000x64_1_0_0_1_n_n.lhsBatch by decide), dif_pos (show (0 : Fin S10000x8.rank) ∈ dot_S10000x8_S8x64_S10000x64_1_0_0_1_n_n.lhsNonContracting by decide)]
  rfl
/-- The left operand's column is the contraction coordinate. -/
theorem lhs_1 (i : S10000x64.Idx) (q : dot_S10000x8_S8x64_S10000x64_1_0_0_1_n_n.contr.Idx) :
    (dot_S10000x8_S8x64_S10000x64_1_0_0_1_n_n.lhsIdx i q 1).val = (q ⟨0, by decide⟩).val :=
  dot_S10000x8_S8x64_S10000x64_1_0_0_1_n_n.lhsIdx_val_of_single rfl i q
/-- The right operand's row is the contraction coordinate. -/
theorem rhs_0 (i : S10000x64.Idx) (q : dot_S10000x8_S8x64_S10000x64_1_0_0_1_n_n.contr.Idx) :
    (dot_S10000x8_S8x64_S10000x64_1_0_0_1_n_n.rhsIdx i q 0).val = (q ⟨0, by decide⟩).val :=
  dot_S10000x8_S8x64_S10000x64_1_0_0_1_n_n.rhsIdx_val_of_single rfl i q
/-- The right operand's column is the output's column. -/
theorem rhs_1 (i : S10000x64.Idx) (q : dot_S10000x8_S8x64_S10000x64_1_0_0_1_n_n.contr.Idx) :
    (dot_S10000x8_S8x64_S10000x64_1_0_0_1_n_n.rhsIdx i q 1).val = (i 1).val := by
  unfold DotDims.rhsIdx
  rw [dif_neg (show ¬(1 : Fin S8x64.rank) ∈ dot_S10000x8_S8x64_S10000x64_1_0_0_1_n_n.rhsBatch by decide), dif_pos (show (1 : Fin S8x64.rank) ∈ dot_S10000x8_S8x64_S10000x64_1_0_0_1_n_n.rhsNonContracting by decide)]
  rfl

/-- A matrix product into the zero accumulator, read at `(r, j)`, is the sum over the eight contracted positions `k`
    of the left operand at `(r, k)` times the right operand at `(k, j)`: the sum over the product's own contraction
    index type is carried to `Fin 8` along the bijection that reads off its one coordinate. -/
theorem matmul_at (l : FVec Ideal S10000x8 .bf16) (w : FVec Ideal S8x64 .bf16) (r : Fin 10000) (j : Fin 64) :
    matmul dot_S10000x8_S8x64_S10000x64_1_0_0_1_n_n none l w (constant (F := Ideal) S10000x64 .f32 0x00000000#32) (ix2 r j)
      = ∑ k : Fin 8, l (ix2 r k) * w (ix2 k j) := by
  simp only [matmul]
  rw [Ideal.matmul_constant_zero_apply, ← Equiv.sum_comp (contrEquiv1 dot_S10000x8_S8x64_S10000x64_1_0_0_1_n_n 8 rfl rfl).symm]
  refine Finset.sum_congr rfl fun k _ => ?_
  have hk := contrEquiv1_symm_val dot_S10000x8_S8x64_S10000x64_1_0_0_1_n_n 8 rfl rfl k
  have el : dot_S10000x8_S8x64_S10000x64_1_0_0_1_n_n.lhsIdx (ix2 r j) ((contrEquiv1 dot_S10000x8_S8x64_S10000x64_1_0_0_1_n_n 8 rfl rfl).symm k) = ix2 r k := funext fun a => Fin.ext (by
    match a with
    | ⟨0, _⟩ => exact lhs_0 _ _
    | ⟨1, _⟩ => exact (lhs_1 _ _).trans hk)
  have er : dot_S10000x8_S8x64_S10000x64_1_0_0_1_n_n.rhsIdx (ix2 r j) ((contrEquiv1 dot_S10000x8_S8x64_S10000x64_1_0_0_1_n_n 8 rfl rfl).symm k) = ix2 k j := funext fun a => Fin.ext (by
    match a with
    | ⟨0, _⟩ => exact (rhs_0 _ _).trans hk
    | ⟨1, _⟩ => exact rhs_1 _ _)
  rw [el, er]

/-- Entry `(r, j)` of the body's stored tile is the layer's entry over row `r` of the two loaded tiles, column `j`
    of the two weight matrices and entry `j` of the bias row. -/
theorem pay_apply (a x : Vec Ideal S10000x8 .f32) (wl wr : Vec Ideal S8x64 .f32) (b : Vec Ideal S1x64 .f32)
    (r : Fin 10000) (j : Fin 64) :
    k0_pay1 (F := Ideal) a x wl wr b (ix2 r j)
      = SageSpec.layerAt (fun k : Fin 8 => a (ix2 r k)) (fun k => x (ix2 r k)) (fun k => wl (ix2 k j))
          (fun k => wr (ix2 k j)) (b (ix2 (0 : Fin 1) j)) := by
  unfold k0_pay1
  rw [maximumf_apply, addf_apply, addf_apply, matmul_at, matmul_at, broadcastTo_1b_ab_apply, shapeCast_self, shapeCast_self,
    broadcast_apply]
  simp only [truncf_apply]
  rfl

end Cert.KernelIdeal.Layer1

end
-- ==== Proof.Layer1Ref.lean ====
/-
  The reference's hidden features at one entry: node `n`, hidden feature `j`.
-/
import proofs.«146979_j84439057039711_1_alg».proof.Proof.Gen.ReferenceIdeal.Read
import proofs.«146979_j84439057039711_1_alg».proof.Proof.Spec

noncomputable section

namespace Cert.ReferenceIdeal.Layer1

open Idealize.ShloMosaic Idealize.ShloMosaic.ValueIdx Cert.ReferenceIdeal Cert.ReferenceIdeal.Read

/-- Entry `(n, j)` of the reference's rectified first layer is the layer's entry over row `n` of the aggregated
    features and of the node features, column `j` of the two weight matrices and entry `j` of the bias. -/
theorem h_apply (x0 : (⟨S100000x8, .f32⟩ : BufTy).Contents (Elt Ideal)) (x1 : (⟨S2x3200000, .i32⟩ : BufTy).Contents (Elt Ideal)) (x2 : (⟨S8x64, .f32⟩ : BufTy).Contents (Elt Ideal))
    (x3 : (⟨S64, .f32⟩ : BufTy).Contents (Elt Ideal)) (x4 : (⟨S8x64, .f32⟩ : BufTy).Contents (Elt Ideal)) (n : Fin 100000) (j : Fin 64) :
    val_main_v28 (F := Ideal) x0 x1 x2 x3 x4 (ix2 n j)
      = SageSpec.layerAt (fun k : Fin 8 => val_main_v21 (F := Ideal) x0 x1 (ix2 n k)) (fun k => x0 (ix2 n k))
          (fun k => x2 (ix2 k j)) (fun k => x4 (ix2 k j)) (x3 (ix1 j)) := by
  have el : ∀ k : Fin 8, lidx_main_v22 (ix2 n j) k = ix2 n k := fun k =>
    funext fun a => by match a with | ⟨0, _⟩ => rfl | ⟨1, _⟩ => rfl
  have er : ∀ k : Fin 8, ridx_main_v22 (ix2 n j) k = ix2 k j := fun k =>
    funext fun a => by match a with | ⟨0, _⟩ => rfl | ⟨1, _⟩ => rfl
  have el' : ∀ k : Fin 8, lidx_main_v26 (ix2 n j) k = ix2 n k := fun k =>
    funext fun a => by match a with | ⟨0, _⟩ => rfl | ⟨1, _⟩ => rfl
  have er' : ∀ k : Fin 8, ridx_main_v26 (ix2 n j) k = ix2 k j := fun k =>
    funext fun a => by match a with | ⟨0, _⟩ => rfl | ⟨1, _⟩ => rfl
  have eb : idx_main_v23 (idx_main_v24 (ix2 n j)) = ix1 j :=
    funext fun a => by match a with | ⟨0, _⟩ => rfl
  rw [val_main_v28_apply, val_main_v27_apply, val_main_v25_apply, val_main_v22_apply, val_main_v24_apply,
    val_main_v23_apply, val_main_v26_apply, val_main_call0_v0_apply, val_main_call0_cst_apply]
  simp only [el, er, el', er', eb, Ideal.addf_def, Ideal.maximumf_def, Ideal.ofBits_def]
  rfl

end Cert.ReferenceIdeal.Layer1

end
-- ==== Proof.Tiles0.lean ====
/-
  From tiles to arrays. Each launch walks ten row tiles of 10,000 nodes; at tile `t` every row-tiled window holds
  rows `10000·t … 10000·t + 9999` of its array and every weight or bias window the whole of its (small) array. What
  tile `t` writes back is therefore tile `t` of ONE function of the arrays the launch finds — the reference's own
  stage function — and the ten tiles cover the output, so the output array ends holding that function.
-/
import proofs.«146979_j84439057039711_1_alg».proof.Proof.Gen.KernelIdeal.Frame
import proofs.«146979_j84439057039711_1_alg».proof.Proof.Layer1Kernel
import proofs.«146979_j84439057039711_1_alg».proof.Proof.Layer1Ref
import Idealize.ShloMosaic.Lib.Pipeline.Value

set_option maxRecDepth 16384

noncomputable section

namespace Cert.KernelIdeal.Tiles0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## Where each window sits at tile `t` -/

/-- The staging buffers are loaded and stored whole: at offsets zero on both axes. -/
theorem zero_offsets : (![0, 0] : Fin 2 → Nat) = fun _ => 0 := funext fun a => by fin_cases a <;> rfl

/-- The launch walks ten tiles. -/
theorem tiles_eq : cfg0.N = 10 := rfl

/-- The windows' index maps over the ten tiles: the two row-tiled inputs and the output sit at block `(t, 0)`, the two
    weight matrices and the bias row at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as entries of its array -/

/-- Row `r` of the aggregated features' tile `t` is row `10000·t + r` of the array. -/
theorem agg_block (c : Dev nD) (t : Fin cfg0.N) (r : Fin 10000) (k : Fin 8) (n : Fin 100000)
    (hn : n.val = 10000 * t.val + r.val) :
    (iblk0 V c 0 t : Vec Ideal S10000x8 .f32) (ix2 r k) = (V c main_v22 : S100000x8.Idx → Elt Ideal .f32) (ix2 n k) := by
  obtain ⟨e0, e1, -⟩ := index_facts t
  unfold iblk0
  rw [View.read_apply]
  show (V c main_v22 : S100000x8.Idx → Elt Ideal .f32) _ = V c main_v22 _
  refine congrArg (V c main_v22 : S100000x8.Idx → Elt Ideal .f32) (funext fun a => Fin.ext ?_)
  match a with
  | ⟨0, _⟩ => show win0_0.index t (0 : Fin 2) * 10000 + 1 * r.val = n.val; rw [e0, hn]; omega
  | ⟨1, _⟩ => show win0_0.index t (1 : Fin 2) * 8 + 1 * k.val = k.val; rw [e1]; omega

/-- Row `r` of the node features' tile `t` is row `10000·t + r` of the array. -/
theorem feat_block (c : Dev nD) (t : Fin cfg0.N) (r : Fin 10000) (k : Fin 8) (n : Fin 100000)
    (hn : n.val = 10000 * t.val + r.val) :
    (iblk0 V c 1 t : Vec Ideal S10000x8 .f32) (ix2 r k) = (V c main_arg0 : S100000x8.Idx → Elt Ideal .f32) (ix2 n k) := by
  obtain ⟨-, -, e0, e1, -⟩ := index_facts t
  unfold iblk0
  rw [View.read_apply]
  show (V c main_arg0 : S100000x8.Idx → Elt Ideal .f32) _ = V c main_arg0 _
  refine congrArg (V c main_arg0 : S100000x8.Idx → Elt Ideal .f32) (funext fun a => Fin.ext ?_)
  match a with
  | ⟨0, _⟩ => show win0_1.index t (0 : Fin 2) * 10000 + 1 * r.val = n.val; rw [e0, hn]; omega
  | ⟨1, _⟩ => show win0_1.index t (1 : Fin 2) * 8 + 1 * k.val = k.val; rw [e1]; omega

/-- The neighbour weights' window holds the whole matrix at every tile. -/
theorem wl_block (c : Dev nD) (t : Fin cfg0.N) (k : Fin 8) (j : Fin 64) :
    (iblk0 V c 2 t : Vec Ideal S8x64 .f32) (ix2 k j) = (V c main_arg2 : S8x64.Idx → Elt Ideal .f32) (ix2 k j) := by
  obtain ⟨-, -, -, -, e0, e1, -⟩ := index_facts t
  unfold iblk0
  rw [View.read_apply]
  show (V c main_arg2 : S8x64.Idx → Elt Ideal .f32) _ = V c main_arg2 _
  refine congrArg (V c main_arg2 : S8x64.Idx → Elt Ideal .f32) (funext fun a => Fin.ext ?_)
  match a with
  | ⟨0, _⟩ => show win0_2.index t (0 : Fin 2) * 8 + 1 * k.val = k.val; rw [e0]; omega
  | ⟨1, _⟩ => show win0_2.index t (1 : Fin 2) * 64 + 1 * j.val = j.val; rw [e1]; omega

/-- The bias window holds the whole bias row at every tile. -/
theorem bias_block (c : Dev nD) (t : Fin cfg0.N) (j : Fin 64) :
    (iblk0 V c 3 t : Vec Ideal S1x64 .f32) (ix2 (0 : Fin 1) j) = (V c main_v23 : S1x64.Idx → Elt Ideal .f32) (ix2 (0 : Fin 1) j) := by
  obtain ⟨-, -, -, -, -, -, e0, e1, -⟩ := index_facts t
  unfold iblk0
  rw [View.read_apply]
  show (V c main_v23 : S1x64.Idx → Elt Ideal .f32) _ = V c main_v23 _
  refine congrArg (V c main_v23 : S1x64.Idx → Elt Ideal .f32) (funext fun a => Fin.ext ?_)
  match a with
  | ⟨0, _⟩ => show win0_3.index t (0 : Fin 2) * 1 + 1 * 0 = 0; rw [e0]
  | ⟨1, _⟩ => show win0_3.index t (1 : Fin 2) * 64 + 1 * j.val = j.val; rw [e1]; omega

/-- The root weights' window holds the whole matrix at every tile. -/
theorem wr_block (c : Dev nD) (t : Fin cfg0.N) (k : Fin 8) (j : Fin 64) :
    (iblk0 V c 4 t : Vec Ideal S8x64 .f32) (ix2 k j) = (V c main_arg4 : S8x64.Idx → Elt Ideal .f32) (ix2 k j) := by
  obtain ⟨-, -, -, -, -, -, -, -, e0, e1, -⟩ := index_facts t
  unfold iblk0
  rw [View.read_apply]
  show (V c main_arg4 : S8x64.Idx → Elt Ideal .f32) _ = V c main_arg4 _
  refine congrArg (V c main_arg4 : S8x64.Idx → Elt Ideal .f32) (funext fun a => Fin.ext ?_)
  match a with
  | ⟨0, _⟩ => show win0_4.index t (0 : Fin 2) * 8 + 1 * k.val = k.val; rw [e0]; omega
  | ⟨1, _⟩ => show win0_4.index t (1 : Fin 2) * 64 + 1 * j.val = j.val; rw [e1]; omega

/-! ## A stored tile that agrees with one function of the array, entry by entry, is that function's tile -/

/-- If entry `(r, j)` of a stored tile `P` is entry `(10000·t + r, j)` of `G` for every row and column, then what the
    output window writes back of `P` at tile `t` is `G` read through tile `t`'s block. -/
theorem cut_eq_read (t : Fin cfg0.N) (P : Vec Ideal S10000x64 .f32) (G : S100000x64.Idx → Elt Ideal .f32)
    (h : ∀ (r : Fin 10000) (j : Fin 64) (n : Fin 100000), n.val = 10000 * t.val + r.val → P (ix2 r j) = G (ix2 n j)) :
    (cfg0.win 5).cut (grid0.coords t) P = ((cfg0.win 5).blk t).view.read (Elt Ideal) G := by
  obtain ⟨-, -, -, -, -, -, -, -, -, -, e0, e1⟩ := index_facts t
  have key : ∀ (y : S10000x64.Idx) (i : S100000x64.Idx), (i 0).val = 10000 * t.val + (y 0).val → (i 1).val = (y 1).val →
      P y = G i := by
    intro y i h0 h1
    obtain ⟨r, j, rfl⟩ : ∃ (r : Fin 10000) (j : Fin 64), y = ix2 r j := ⟨y 0, y 1, eq_ix2 y⟩
    obtain ⟨n, j', rfl⟩ : ∃ (n : Fin 100000) (j' : Fin 64), i = ix2 n j' := ⟨i 0, i 1, eq_ix2 i⟩
    have h0' : n.val = 10000 * t.val + r.val := h0
    obtain rfl : j' = j := Fin.ext h1
    exact h r j' n h0'
  funext y
  show P y = G (((cfg0.win 5).blk t).view.emb y)
  refine key y _ ?_ ?_
  · show win0_5.index t (0 : Fin 2) * 10000 + 1 * ((y : S10000x64.Idx) 0).val = 10000 * t.val + ((y : S10000x64.Idx) 0).val
    rw [e0]; omega
  · show win0_5.index t (1 : Fin 2) * 64 + 1 * ((y : S10000x64.Idx) 1).val = ((y : S10000x64.Idx) 1).val
    rw [e1]; omega

/-! ## What tile `t` writes back -/

section Arrays

variable (c : Dev nD)
  (x0 : (⟨S100000x8, .f32⟩ : BufTy).Contents (Elt Ideal)) (x1 : (⟨S2x3200000, .i32⟩ : BufTy).Contents (Elt Ideal))
  (x2 : (⟨S8x64, .f32⟩ : BufTy).Contents (Elt Ideal)) (x3 : (⟨S64, .f32⟩ : BufTy).Contents (Elt Ideal))
  (x4 : (⟨S8x64, .f32⟩ : BufTy).Contents (Elt Ideal))
  (hA : V c main_v22 = Cert.ReferenceIdeal.Read.val_main_v21 (F := Ideal) x0 x1)
  (hX : V c main_arg0 = x0) (hWl : V c main_arg2 = x2)
  (hb : V c main_v23 = shapeCast S1x64 x3 shapeCasts_S64_S1x64) (hWr : V c main_arg4 = x4)

include hA hX hWl hb hWr

/-- Entry `(r, j)` of what the body stores at tile `t` is entry `(10000·t + r, j)` of the reference's rectified first
    layer: both are the layer's entry over the same row of the aggregated and of the node features, the same weight
    columns and the same bias entry. -/
theorem stored_entry (t : Fin cfg0.N) (r : Fin 10000) (j : Fin 64) (n : Fin 100000) (hn : n.val = 10000 * t.val + r.val) :
    k0_pay1 (F := Ideal) (iblk0 V c 0 t) (iblk0 V c 1 t) (iblk0 V c 2 t) (iblk0 V c 4 t) (iblk0 V c 3 t) (ix2 r j)
      = Cert.ReferenceIdeal.Read.val_main_v28 (F := Ideal) x0 x1 x2 x3 x4 (ix2 n j) := by
  refine (Cert.KernelIdeal.Layer1.pay_apply (iblk0 V c 0 t) (iblk0 V c 1 t) (iblk0 V c 2 t) (iblk0 V c 4 t) (iblk0 V c 3 t) r j).trans ?_
  refine Eq.trans ?_ (Cert.ReferenceIdeal.Layer1.h_apply x0 x1 x2 x3 x4 n j).symm
  have e1 : (fun k : Fin 8 => (iblk0 V c 0 t : Vec Ideal S10000x8 .f32) (ix2 r k))
      = fun k : Fin 8 => Cert.ReferenceIdeal.Read.val_main_v21 (F := Ideal) x0 x1 (ix2 n k) :=
    funext fun k => by rw [agg_block V c t r k n hn, hA]
  have e2 : (fun k : Fin 8 => (iblk0 V c 1 t : Vec Ideal S10000x8 .f32) (ix2 r k)) = fun k : Fin 8 => x0 (ix2 n k) :=
    funext fun k => by rw [feat_block V c t r k n hn, hX]
  have e3 : (fun k : Fin 8 => (iblk0 V c 2 t : Vec Ideal S8x64 .f32) (ix2 k j)) = fun k : Fin 8 => x2 (ix2 k j) :=
    funext fun k => by rw [wl_block V c t k j, hWl]
  have e4 : (fun k : Fin 8 => (iblk0 V c 4 t : Vec Ideal S8x64 .f32) (ix2 k j)) = fun k : Fin 8 => x4 (ix2 k j) :=
    funext fun k => by rw [wr_block V c t k j, hWr]
  have e5 : (iblk0 V c 3 t : Vec Ideal S1x64 .f32) (ix2 (0 : Fin 1) j) = x3 (ix1 j) := by
    rw [bias_block V c t j, hb]
    exact shapeCast_a_1a_apply x3 shapeCasts_S64_S1x64 0 j
  exact congr (congr (congr (congr (congrArg (SageSpec.layerAt (K := 8)) e1) e2) e3) e4) e5

/-- What tile `t` writes back is tile `t` of the reference's rectified first layer. -/
theorem flushed_eq (t : Fin cfg0.N) :
    (dat0 (F := Ideal) V c).flushed 5 t
      = ((cfg0.win 5).blk t).view.read (Elt Ideal) (Cert.ReferenceIdeal.Read.val_main_v28 (F := Ideal) x0 x1 x2 x3 x4) := by
  show (cfg0.win 5).cut (grid0.coords t) ((dat0 (F := Ideal) V c).after 5 t) = _
  rw [after0_5]
  unfold out0_5
  rw [View.canon_unit_zero zero_offsets]
  simp only [View.ld_unit_zero (S := S10000x8) zero_offsets, View.ld_unit_zero (S := S8x64) zero_offsets,
    View.ld_unit_zero (S := S1x64) zero_offsets]
  exact cut_eq_read t _ _ fun r j n hn => stored_entry V c x0 x1 x2 x3 x4 hA hX hWl hb hWr t r j n hn

end Arrays

/-! ## The ten tiles cover the output -/

/-- An index of the output array is in tile `t`'s block iff each coordinate is in the block's range on its axis. -/
theorem mem_tile (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v24).slice (win0_5.rect t)).set ↔ _
  rw [View.set_slice_whole, Rect.mem_set_unit]
  exact Iff.rfl

/-- Row `n` of the output is in tile `n / 10000`, which is written back. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := tiles_eq
  refine ⟨⟨(i 0).val / 10000, by rw [hN]; omega⟩, flush0_5 _, ?_⟩
  obtain ⟨-, -, -, -, -, -, -, -, -, -, e0, e1⟩ := index_facts ⟨(i 0).val / 10000, by rw [hN]; omega⟩
  rw [mem_tile]
  intro a
  match a with
  | ⟨0, _⟩ =>
    show win0_5.index ⟨(i 0).val / 10000, _⟩ (0 : Fin 2) * 10000 ≤ (i 0).val
      ∧ (i 0).val < win0_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, _⟩ (1 : Fin 2) * 64 ≤ (i 1).val
      ∧ (i 1).val < win0_5.index ⟨(i 0).val / 10000, _⟩ (1 : Fin 2) * 64 + 64
    rw [e1]; omega

/-- The first launch's output array, from what the launch finds in its five input arrays: the reference's rectified
    first layer of the same node features, edge list, weights and bias. -/
theorem region0_array (c : Dev nD)
    (x0 : (⟨S100000x8, .f32⟩ : BufTy).Contents (Elt Ideal)) (x1 : (⟨S2x3200000, .i32⟩ : BufTy).Contents (Elt Ideal)) (x2 : (⟨S8x64, .f32⟩ : BufTy).Contents (Elt Ideal))
    (x3 : (⟨S64, .f32⟩ : BufTy).Contents (Elt Ideal)) (x4 : (⟨S8x64, .f32⟩ : BufTy).Contents (Elt Ideal))
    (hA : V c main_v22 = Cert.ReferenceIdeal.Read.val_main_v21 (F := Ideal) x0 x1)
    (hX : V c main_arg0 = x0) (hWl : V c main_arg2 = x2)
    (hb : V c main_v23 = shapeCast S1x64 x3 shapeCasts_S64_S1x64) (hWr : V c main_arg4 = x4) :
    (dat0 (F := Ideal) V c).arrAt 5 cfg0.N = Cert.ReferenceIdeal.Read.val_main_v28 (F := Ideal) x0 x1 x2 x3 x4 := by
  exact (dat0 (F := Ideal) V c).arrAt_eq_of_cover 5 _
    (fun t _ => flushed_eq V c x0 x1 x2 x3 x4 hA hX hWl hb hWr t) covered

end Cert.KernelIdeal.Tiles0

end
-- ==== Proof.HeadKernel.lean ====
/-
  The second kernel body's stored value at one entry of its tile: row `r` of the tile (the output has one column).
-/
import proofs.«146979_j84439057039711_1_alg».proof.Proof.Gen.KernelIdeal.Skeleton
import proofs.«146979_j84439057039711_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Idealize.ShloMosaic Idealize.ShloMosaic.ValueIdx Cert.KernelIdeal Cert.KernelIdeal.Gen

/-! ## The three products, each read at an entry as a finite sum -/

/-! ### the second layer's two products (inner width 64) -/

/-- The left operand's row coordinate is the output's row. -/
theorem lhsA_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- The left operand's column coordinate is the summation index. -/
theorem lhsA_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand's row coordinate is the summation index. -/
theorem rhsA_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- The right operand's column coordinate is the output's column. -/
theorem rhsA_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry `(r, c)` of the product accumulated from zero is `Σₖ x(r,k)·w(k,c)`, `k` over the inner width. -/
theorem mmA_apply (x : FVec Ideal S10000x64 .bf16) (w : FVec Ideal S64x32 .bf16) (r : Fin 10000) (c : Fin 32) :
    matmul dot_S10000x64_S64x32_S10000x32_1_0_0_1_n_n none x w (constant (F := Ideal) S10000x32 .f32 0x00000000#32) (ix2 r c)
      = ∑ k : Fin 64, x (ix2 r k) * w (ix2 k c) := by
  refine (Ideal.matmul_constant_zero_apply dot_S10000x64_S64x32_S10000x32_1_0_0_1_n_n none x w (ix2 r c)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 r c) ((contrEquiv1 dot_S10000x64_S64x32_S10000x32_1_0_0_1_n_n 64 rfl rfl).symm k) = ix2 r k := funext fun a => Fin.ext (by
    match a with
    | ⟨0, _⟩ => exact lhsA_0 _ _
    | ⟨1, _⟩ => exact (lhsA_1 _ _).trans hk)
  have er : dot_S10000x64_S64x32_S10000x32_1_0_0_1_n_n.rhsIdx (ix2 r c) ((contrEquiv1 dot_S10000x64_S64x32_S10000x32_1_0_0_1_n_n 64 rfl rfl).symm k) = ix2 k c := funext fun a => Fin.ext (by
    match a with
    | ⟨0, _⟩ => exact (rhsA_0 _ _).trans hk
    | ⟨1, _⟩ => exact rhsA_1 _ _)
  rw [el, er]

/-! ### the dense layer's product (inner width 32) -/

/-- The left operand's row coordinate is the output's row. -/
theorem lhsB_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
/-- The left operand's column coordinate is the summation index. -/
theorem lhsB_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
/-- The right operand's row coordinate is the summation index. -/
theorem rhsB_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
/-- The right operand's column coordinate is the output's column. -/
theorem rhsB_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- Entry `(r, c)` of the product accumulated from zero is `Σₖ x(r,k)·w(k,c)`, `k` over the inner width. -/
theorem mmB_apply (x : FVec Ideal S10000x32 .bf16) (w : FVec Ideal S32x16 .bf16) (r : Fin 10000) (c : Fin 16) :
    matmul dot_S10000x32_S32x16_S10000x16_1_0_0_1_n_n none x w (constant (F := Ideal) S10000x16 .f32 0x00000000#32) (ix2 r c)
      = ∑ k : Fin 32, x (ix2 r k) * w (ix2 k c) := by
  refine (Ideal.matmul_constant_zero_apply dot_S10000x32_S32x16_S10000x16_1_0_0_1_n_n none x w (ix2 r c)).trans ?_
  rw [← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 r c) ((contrEquiv1 dot_S10000x32_S32x16_S10000x16_1_0_0_1_n_n 32 rfl rfl).symm k) = ix2 r k := funext fun a => Fin.ext (by
    match a with
    | ⟨0, _⟩ => exact lhsB_0 _ _
    | ⟨1, _⟩ => exact (lhsB_1 _ _).trans hk)
  have er : dot_S10000x32_S32x16_S10000x16_1_0_0_1_n_n.rhsIdx (ix2 r c) ((contrEquiv1 dot_S10000x32_S32x16_S10000x16_1_0_0_1_n_n 32 rfl rfl).symm k) = ix2 k c := funext fun a => Fin.ext (by
    match a with
    | ⟨0, _⟩ => exact (rhsB_0 _ _).trans hk
    | ⟨1, _⟩ => exact rhsB_1 _ _)
  rw [el, er]

/-! ### the dense unit's product (inner width 16) -/

/-- The left operand's row coordinate is the output's row. -/
theorem lhsC_0 (i : S10000x1.Idx) (q : dot_S10000x16_S16x1_S10000x1_1_0_0_1_n_n.contr.Idx) :
    (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
/-- The left operand's column coordinate is the summation index. -/
theorem lhsC_1 (i : S10000x1.Idx) (q : dot_S10000x16_S16x1_S10000x1_1_0_0_1_n_n.contr.Idx) :
    (dot_S10000x16_S16x1_S10000x1_1_0_0_1_n_n.lhsIdx i q 1).val = (q ⟨0, by decide⟩).val :=
  dot_S10000x16_S16x1_S10000x1_1_0_0_1_n_n.lhsIdx_val_of_single rfl i q
/-- The right operand's row coordinate is the summation index. -/
theorem rhsC_0 (i : S10000x1.Idx) (q : dot_S10000x16_S16x1_S10000x1_1_0_0_1_n_n.contr.Idx) :
    (dot_S10000x16_S16x1_S10000x1_1_0_0_1_n_n.rhsIdx i q 0).val = (q ⟨0, by decide⟩).val :=
  dot_S10000x16_S16x1_S10000x1_1_0_0_1_n_n.rhsIdx_val_of_single rfl i q
/-- The right operand's column coordinate is the output's column. -/
theorem rhsC_1 (i : S10000x1.Idx) (q : dot_S10000x16_S16x1_S10000x1_1_0_0_1_n_n.contr.Idx) :
    (dot_S10000x16_S16x1_S10000x1_1_0_0_1_n_n.rhsIdx i q 1).val = (i 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- Entry `(r, c)` of the product accumulated from zero is `Σₖ x(r,k)·w(k,c)`, `k` over the inner width. -/
theorem mmC_apply (x : FVec Ideal S10000x16 .bf16) (w : FVec Ideal S16x1 .bf16) (r : Fin 10000) (c : Fin 1) :
    matmul dot_S10000x16_S16x1_S10000x1_1_0_0_1_n_n none x w (constant (F := Ideal) S10000x1 .f32 0x00000000#32) (ix2 r c)
      = ∑ k : Fin 16, x (ix2 r k) * w (ix2 k c) := by
  refine (Ideal.matmul_constant_zero_apply dot_S10000x16_S16x1_S10000x1_1_0_0_1_n_n none x w (ix2 r c)).trans ?_
  rw [← Equiv.sum_comp (contrEquiv1 dot_S10000x16_S16x1_S10000x1_1_0_0_1_n_n 16 rfl rfl).symm]
  refine Finset.sum_congr rfl fun k _ => ?_
  have hk := contrEquiv1_symm_val dot_S10000x16_S16x1_S10000x1_1_0_0_1_n_n 16 rfl rfl k
  have el : dot_S10000x16_S16x1_S10000x1_1_0_0_1_n_n.lhsIdx (ix2 r c) ((contrEquiv1 dot_S10000x16_S16x1_S10000x1_1_0_0_1_n_n 16 rfl rfl).symm k) = ix2 r k := funext fun a => Fin.ext (by
    match a with
    | ⟨0, _⟩ => exact lhsC_0 _ _
    | ⟨1, _⟩ => exact (lhsC_1 _ _).trans hk)
  have er : dot_S10000x16_S16x1_S10000x1_1_0_0_1_n_n.rhsIdx (ix2 r c) ((contrEquiv1 dot_S10000x16_S16x1_S10000x1_1_0_0_1_n_n 16 rfl rfl).symm k) = ix2 k c := funext fun a => Fin.ext (by
    match a with
    | ⟨0, _⟩ => exact (rhsC_0 _ _).trans hk
    | ⟨1, _⟩ => exact rhsC_1 _ _)
  rw [el, er]

/-! ## The body's value in three stages, each over its own operands -/

/-- The second layer's tile: both products over the 64 hidden features, the bias row on every row, rectified. -/
def layer2 (a h : FVec Ideal S10000x64 .f32) (w2l w2r : FVec Ideal S64x32 .f32) (b2 : FVec Ideal S1x32 .f32) :
    FVec Ideal S10000x32 .f32 :=
  maximumf
    (addf
      (addf
        (matmul dot_S10000x64_S64x32_S10000x32_1_0_0_1_n_n none
          (truncf .bf16 (shapeCast S10000x64 a shapeCasts_S10000x64_S10000x64) bitsLt_bf16_f32)
          (truncf .bf16 w2l bitsLt_bf16_f32) (constant S10000x32 .f32 0x00000000#32))
        (broadcastTo S10000x32 (shapeCast S1x32 b2 shapeCasts_S1x32_S1x32) broadcasts_S1x32_S10000x32))
      (matmul dot_S10000x64_S64x32_S10000x32_1_0_0_1_n_n none
        (truncf .bf16 (shapeCast S10000x64 h shapeCasts_S10000x64_S10000x64) bitsLt_bf16_f32)
        (truncf .bf16 w2r bitsLt_bf16_f32) (constant S10000x32 .f32 0x00000000#32)))
    (broadcast S10000x32 (Scalar.ofBits .f32 0x00000000#32))

/-- The dense layer's tile over a 32-wide tile: the product, the bias row on every row, rectified. -/
def dense (x : FVec Ideal S10000x32 .f32) (wh1 : FVec Ideal S32x16 .f32) (bh1 : FVec Ideal S1x16 .f32) :
    FVec Ideal S10000x16 .f32 :=
  maximumf
    (addf
      (matmul dot_S10000x32_S32x16_S10000x16_1_0_0_1_n_n none (truncf .bf16 x bitsLt_bf16_f32) (truncf .bf16 wh1 bitsLt_bf16_f32)
        (constant S10000x16 .f32 0x00000000#32))
      (broadcastTo S10000x16 (shapeCast S1x16 bh1 shapeCasts_S1x16_S1x16) broadcasts_S1x16_S10000x16))
    (broadcast S10000x16 (Scalar.ofBits .f32 0x00000000#32))

/-- The dense unit's column over a 16-wide tile: the product alone. -/
def unit (y : FVec Ideal S10000x16 .f32) (wh2 : FVec Ideal S16x1 .f32) : FVec Ideal S10000x1 .f32 :=
  matmul dot_S10000x16_S16x1_S10000x1_1_0_0_1_n_n none (truncf .bf16 y bitsLt_bf16_f32) (truncf .bf16 wh2 bitsLt_bf16_f32)
    (constant S10000x1 .f32 0x00000000#32)

/-- The body's product chain is the three stages composed. -/
theorem pay2_eq (a h : Vec Ideal S10000x64 .f32) (w2l w2r : Vec Ideal S64x32 .f32) (b2 : Vec Ideal S1x32 .f32)
    (wh1 : Vec Ideal S32x16 .f32) (bh1 : Vec Ideal S1x16 .f32) (wh2 : Vec Ideal S16x1 .f32) :
    k1_pay2 (F := Ideal) a h w2l w2r b2 wh1 bh1 wh2 = unit (dense (layer2 a h w2l w2r b2) wh1 bh1) wh2 := rfl

/-- Entry `(r, j)` of the second layer's tile is the layer's entry over row `r` of the two tiles, column `j` of the two
    weight matrices and entry `j` of the bias row: the narrowing of each operand is the identity on extended reals,
    and so is the cast of an array to its own shape. -/
theorem layer2_apply (a h : FVec Ideal S10000x64 .f32) (w2l w2r : FVec Ideal S64x32 .f32) (b2 : FVec Ideal S1x32 .f32)
    (r : Fin 10000) (j : Fin 32) :
    layer2 a h w2l w2r b2 (ix2 r j)
      = SageSpec.layerAt (fun k : Fin 64 => a (ix2 r k)) (fun k => h (ix2 r k)) (fun k => w2l (ix2 k j))
          (fun k => w2r (ix2 k j)) (b2 (ix2 (0 : Fin 1) j)) := by
  unfold layer2 SageSpec.layerAt
  rw [maximumf_apply, addf_apply, addf_apply, mmA_apply, mmA_apply, broadcastTo_1b_ab_apply, shapeCast_self, shapeCast_self,
    shapeCast_self]
  rfl

/-- Entry `(r, i)` of the dense layer's tile: `max ((Σⱼ x(r,j)·wh1(j,i)) + bh1(0,i)) 0`. -/
theorem dense_apply (x : FVec Ideal S10000x32 .f32) (wh1 : FVec Ideal S32x16 .f32) (bh1 : FVec Ideal S1x16 .f32)
    (r : Fin 10000) (i : Fin 16) :
    dense x wh1 bh1 (ix2 r i)
      = max ((∑ j : Fin 32, x (ix2 r j) * wh1 (ix2 j i)) + bh1 (ix2 (0 : Fin 1) i)) SageSpec.zeroWord := by
  unfold dense
  rw [maximumf_apply, addf_apply, mmB_apply, broadcastTo_1b_ab_apply, shapeCast_self]
  rfl

/-- Entry `(r, c)` of the dense unit's column: `Σᵢ y(r,i)·wh2(i,c)`. -/
theorem unit_apply (y : FVec Ideal S10000x16 .f32) (wh2 : FVec Ideal S16x1 .f32) (r : Fin 10000) (c : Fin 1) :
    unit y wh2 (ix2 r c) = ∑ i : Fin 16, y (ix2 r i) * wh2 (ix2 i c) := by
  unfold unit
  rw [mmC_apply]
  rfl

/-- Entry `(r, 0)` of the body's stored tile is the head's value over row `r` of the two loaded tiles and the whole of
    every weight matrix and bias row. -/
theorem pay_apply (a h : Vec Ideal S10000x64 .f32) (w2l w2r : Vec Ideal S64x32 .f32) (b2 : Vec Ideal S1x32 .f32)
    (wh1 : Vec Ideal S32x16 .f32) (bh1 : Vec Ideal S1x16 .f32) (wh2 : Vec Ideal S16x1 .f32) (bh2 : Vec Ideal S1x1 .f32)
    (r : Fin 10000) :
    k1_pay1 (F := Ideal) (k1_pay2 a h w2l w2r b2 wh1 bh1 wh2) (k1_pay3 bh2) (ix2 r (0 : Fin 1))
      = SageSpec.headAt (fun k : Fin 64 => a (ix2 r k)) (fun k => h (ix2 r k))
          (fun k j => w2l (ix2 k j)) (fun k j => w2r (ix2 k j)) (fun j => b2 (ix2 (0 : Fin 1) j))
          (fun j i => wh1 (ix2 j i)) (fun i => bh1 (ix2 (0 : Fin 1) i)) (fun i => wh2 (ix2 i (0 : Fin 1)))
          (bh2 (ix2 (0 : Fin 1) (0 : Fin 1))) := by
  show Ideal.logistic (k1_pay2 (F := Ideal) a h w2l w2r b2 wh1 bh1 wh2 (ix2 r (0 : Fin 1))
      + broadcastTo S10000x1 (shapeCast S1x1 bh2 shapeCasts_S1x1_S1x1) broadcasts_S1x1_S10000x1 (ix2 r (0 : Fin 1))) = _
  rw [pay2_eq, unit_apply, broadcastTo_1b_ab_apply, shapeCast_self]
  unfold SageSpec.headAt
  simp only [dense_apply, layer2_apply]

end Cert.KernelIdeal.Head

end
-- ==== Proof.HeadRef.lean ====
/-
  The reference's output before its final reshape, at one node `n`.
-/
import proofs.«146979_j84439057039711_1_alg».proof.Proof.Gen.ReferenceIdeal.Read
import proofs.«146979_j84439057039711_1_alg».proof.Proof.Spec

noncomputable section

namespace Cert.ReferenceIdeal.Head

open Idealize.ShloMosaic Idealize.ShloMosaic.ValueIdx Cert.ReferenceIdeal Cert.ReferenceIdeal.Read

/-- The word `0x3F800000` is the number one. -/
theorem ofBits_one_f32 : Ideal.ofBits .f32 0x3F800000#32 = 1 := by
  simp [Ideal.ofBits, Ideal.ieee, -EReal.coe_mul]; norm_num

/-- Entry `(n, j)` of the reference's rectified second layer is the layer's entry over row `n` of the second
    aggregation and of the hidden features. -/
theorem layer2_apply (x0 : (⟨S100000x8, .f32⟩ : BufTy).Contents (Elt Ideal)) (x1 : (⟨S2x3200000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (n : Fin 100000) (j : Fin 32) :
    val_main_v53 (F := Ideal) x0 x1 x2 x3 x4 x5 x6 x7 (ix2 n j)
      = SageSpec.layerAt (fun k : Fin 64 => val_main_v46 (F := Ideal) x0 x1 x2 x3 x4 (ix2 n k))
          (fun k => val_main_v28 (F := Ideal) x0 x1 x2 x3 x4 (ix2 n k))
          (fun k => x5 (ix2 k j)) (fun k => x7 (ix2 k j)) (x6 (ix1 j)) := by
  have el : ∀ k : Fin 64, lidx_main_v47 (ix2 n j) k = ix2 n k := fun k =>
    funext fun a => by match a with | ⟨0, _⟩ => rfl | ⟨1, _⟩ => rfl
  have er : ∀ k : Fin 64, ridx_main_v47 (ix2 n j) k = ix2 k j := fun k =>
    funext fun a => by match a with | ⟨0, _⟩ => rfl | ⟨1, _⟩ => rfl
  have el' : ∀ k : Fin 64, lidx_main_v51 (ix2 n j) k = ix2 n k := fun k =>
    funext fun a => by match a with | ⟨0, _⟩ => rfl | ⟨1, _⟩ => rfl
  have er' : ∀ k : Fin 64, ridx_main_v51 (ix2 n j) k = ix2 k j := fun k =>
    funext fun a => by match a with | ⟨0, _⟩ => rfl | ⟨1, _⟩ => rfl
  have eb : idx_main_v48 (idx_main_v49 (ix2 n j)) = ix1 j :=
    funext fun a => by match a with | ⟨0, _⟩ => rfl
  rw [val_main_v53_apply, val_main_v52_apply, val_main_v50_apply, val_main_v47_apply, val_main_v49_apply,
    val_main_v48_apply, val_main_v51_apply, val_main_call1_v0_apply, val_main_call1_cst_apply]
  simp only [el, er, el', er', eb, Ideal.addf_def, Ideal.maximumf_def, Ideal.ofBits_def]
  rfl

/-- Entry `(n, i)` of the reference's rectified dense layer: the second layer's row `n` times column `i` of the
    weights, plus the bias, against zero. -/
theorem dense_apply (x0 : (⟨S100000x8, .f32⟩ : BufTy).Contents (Elt Ideal)) (x1 : (⟨S2x3200000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x16, .f32⟩ : BufTy).Contents (Elt Ideal)) (x9 : (⟨S16, .f32⟩ : BufTy).Contents (Elt Ideal)) (n : Fin 100000) (i : Fin 16) :
    val_main_v58 (F := Ideal) x0 x1 x2 x3 x4 x5 x6 x7 x8 x9 (ix2 n i)
      = max ((∑ j : Fin 32, val_main_v53 (F := Ideal) x0 x1 x2 x3 x4 x5 x6 x7 (ix2 n j) * x8 (ix2 j i)) + x9 (ix1 i))
          SageSpec.zeroWord := by
  have el : ∀ k : Fin 32, lidx_main_v54 (ix2 n i) k = ix2 n k := fun k =>
    funext fun a => by match a with | ⟨0, _⟩ => rfl | ⟨1, _⟩ => rfl
  have er : ∀ k : Fin 32, ridx_main_v54 (ix2 n i) k = ix2 k i := fun k =>
    funext fun a => by match a with | ⟨0, _⟩ => rfl | ⟨1, _⟩ => rfl
  have eb : idx_main_v55 (idx_main_v56 (ix2 n i)) = ix1 i :=
    funext fun a => by match a with | ⟨0, _⟩ => rfl
  rw [val_main_v58_apply, val_main_v57_apply, val_main_v54_apply, val_main_v56_apply, val_main_v55_apply,
    val_main_call2_v0_apply, val_main_call2_cst_apply]
  simp only [el, er, eb, Ideal.addf_def, Ideal.maximumf_def, Ideal.ofBits_def]

/-- Entry `(n, 0)` of the reference's dense unit: the dense layer's row `n` times the one column of the weights,
    plus the bias. -/
theorem unit_apply (x0 : (⟨S100000x8, .f32⟩ : BufTy).Contents (Elt Ideal)) (x1 : (⟨S2x3200000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal)) (x11 : (⟨S1, .f32⟩ : BufTy).Contents (Elt Ideal)) (n : Fin 100000) :
    val_main_v62 (F := Ideal) x0 x1 x2 x3 x4 x5 x6 x7 x8 x9 x10 x11 (ix2 n (0 : Fin 1))
      = (∑ i : Fin 16, val_main_v58 (F := Ideal) x0 x1 x2 x3 x4 x5 x6 x7 x8 x9 (ix2 n i) * x10 (ix2 i (0 : Fin 1)))
          + x11 (ix1 (0 : Fin 1)) := by
  have el : ∀ k : Fin 16, lidx_main_v59 (ix2 n (0 : Fin 1)) k = ix2 n k := fun k =>
    funext fun a => by match a with | ⟨0, _⟩ => rfl | ⟨1, _⟩ => rfl
  have er : ∀ k : Fin 16, ridx_main_v59 (ix2 n (0 : Fin 1)) k = ix2 k (0 : Fin 1) := fun k =>
    funext fun a => by match a with | ⟨0, _⟩ => rfl | ⟨1, _⟩ => rfl
  have eb : idx_main_v60 (idx_main_v61 (ix2 n (0 : Fin 1))) = ix1 (0 : Fin 1) :=
    funext fun a => by match a with | ⟨0, _⟩ => rfl
  rw [val_main_v62_apply, val_main_v59_apply, val_main_v61_apply, val_main_v60_apply]
  simp only [el, er, eb, Ideal.addf_def]

/-- The reference's quotient `1 / (1 + exp (-logit))` is the logistic function of the logit, at every index. -/
theorem logistic_apply (x0 : (⟨S100000x8, .f32⟩ : BufTy).Contents (Elt Ideal)) (x1 : (⟨S2x3200000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal)) (x11 : (⟨S1, .f32⟩ : BufTy).Contents (Elt Ideal)) (i : S100000x1.Idx) :
    val_main_v68 (F := Ideal) x0 x1 x2 x3 x4 x5 x6 x7 x8 x9 x10 x11 i
      = Ideal.logistic (val_main_v62 (F := Ideal) x0 x1 x2 x3 x4 x5 x6 x7 x8 x9 x10 x11 i) := by
  rw [val_main_v68_apply, val_main_v67_apply, val_main_cst_11_apply, val_main_v66_apply, val_main_v65_apply,
    val_main_cst_10_apply, val_main_v64_apply, val_main_v63_apply]
  simp only [Ideal.hostDivf_def, Ideal.addf_def, Ideal.hostNegf_def, Ideal.hostUnary_exp_def, Ideal.ofBits_def,
    ofBits_one_f32]
  rfl

/-- Entry `(n, 0)` of the reference's quotient `1 / (1 + exp (-logit))` is the head's value over row `n` of the second
    aggregation and of the hidden features, and the whole of every later weight matrix and bias. -/
theorem out_apply (x0 : (⟨S100000x8, .f32⟩ : BufTy).Contents (Elt Ideal)) (x1 : (⟨S2x3200000, .i32⟩ : BufTy).Contents (Elt Ideal)) (x2 : (⟨S8x64, .f32⟩ : BufTy).Contents (Elt Ideal))
    (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal))
    (x7 : (⟨S64x32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal))
    (x11 : (⟨S1, .f32⟩ : BufTy).Contents (Elt Ideal)) (n : Fin 100000) :
    val_main_v68 (F := Ideal) x0 x1 x2 x3 x4 x5 x6 x7 x8 x9 x10 x11 (ix2 n (0 : Fin 1))
      = SageSpec.headAt (fun k : Fin 64 => val_main_v46 (F := Ideal) x0 x1 x2 x3 x4 (ix2 n k))
          (fun k => val_main_v28 (F := Ideal) x0 x1 x2 x3 x4 (ix2 n k))
          (fun k j => x5 (ix2 k j)) (fun k j => x7 (ix2 k j)) (fun j => x6 (ix1 j))
          (fun j i => x8 (ix2 j i)) (fun i => x9 (ix1 i)) (fun i => x10 (ix2 i (0 : Fin 1)))
          (x11 (ix1 (0 : Fin 1))) := by
  rw [logistic_apply, unit_apply]
  simp only [dense_apply, layer2_apply]
  rfl

end Cert.ReferenceIdeal.Head

end
-- ==== Proof.Tiles1.lean ====
/-
  From tiles to arrays. Each launch walks ten row tiles of 10,000 nodes; at tile `t` every row-tiled window holds
  rows `10000·t … 10000·t + 9999` of its array and every weight or bias window the whole of its (small) array. What
  tile `t` writes back is therefore tile `t` of ONE function of the arrays the launch finds — the reference's own
  stage function — and the ten tiles cover the output, so the output array ends holding that function.
-/
import proofs.«146979_j84439057039711_1_alg».proof.Proof.Gen.KernelIdeal.Frame
import proofs.«146979_j84439057039711_1_alg».proof.Proof.HeadKernel
import proofs.«146979_j84439057039711_1_alg».proof.Proof.HeadRef
import Idealize.ShloMosaic.Lib.Pipeline.Value

set_option maxRecDepth 16384

noncomputable section

namespace Cert.KernelIdeal.Tiles1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer access, however spelt. -/
theorem zero_offsets : (![0, 0] : Fin 2 → Nat) = fun _ => 0 :=
  funext fun a => match a with | ⟨0, _⟩ => rfl | ⟨1, _⟩ => rfl

/-- The ten tiles' block indices: the two feature windows and the output move down the rows with the tile, at column
    block 0; every weight and bias window stays at block (0, 0). -/
theorem tile_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Tile `t` of the second aggregation is rows `10000·t …` of its array. -/
theorem agg_tile (c : Dev nD) (t : Fin cfg1.N) (r : Fin 10000) (k : Fin 64) (h : 10000 * t.val + r.val < 100000) :
    iblk1 V c 0 t (ix2 r k) = V c main_v43 (ix2 ⟨10000 * t.val + r.val, h⟩ k) := by
  obtain ⟨e0, e1, -⟩ := tile_indices t
  show V c main_v43 (((cfg1.win 0).blk t).view.emb (ix2 r k)) = V c main_v43 (ix2 ⟨10000 * t.val + r.val, h⟩ k)
  refine congrArg _ ?_
  funext a; apply Fin.ext
  match a with
  | ⟨0, _⟩ => show win1_0.index t (0 : Fin 2) * 10000 + 1 * r.val = 10000 * t.val + r.val; omega
  | ⟨1, _⟩ => show win1_0.index t (1 : Fin 2) * 64 + 1 * k.val = k.val; omega

/-- Tile `t` of the hidden features is rows `10000·t …` of its array. -/
theorem hid_tile (c : Dev nD) (t : Fin cfg1.N) (r : Fin 10000) (k : Fin 64) (h : 10000 * t.val + r.val < 100000) :
    iblk1 V c 1 t (ix2 r k) = V c main_v24 (ix2 ⟨10000 * t.val + r.val, h⟩ k) := by
  obtain ⟨-, -, e0, e1, -⟩ := tile_indices t
  show V c main_v24 (((cfg1.win 1).blk t).view.emb (ix2 r k)) = V c main_v24 (ix2 ⟨10000 * t.val + r.val, h⟩ k)
  refine congrArg _ ?_
  funext a; apply Fin.ext
  match a with
  | ⟨0, _⟩ => show win1_1.index t (0 : Fin 2) * 10000 + 1 * r.val = 10000 * t.val + r.val; omega
  | ⟨1, _⟩ => show win1_1.index t (1 : Fin 2) * 64 + 1 * k.val = k.val; omega

/-- The second layer's neighbour weights are read whole at every tile. -/
theorem w2l_tile (c : Dev nD) (t : Fin cfg1.N) (k : Fin 64) (j : Fin 32) :
    iblk1 V c 2 t (ix2 k j) = V c main_arg5 (ix2 k j) := by
  obtain ⟨-, -, -, -, e0, e1, -⟩ := tile_indices t
  show V c main_arg5 (((cfg1.win 2).blk t).view.emb (ix2 k j)) = V c main_arg5 (ix2 k j)
  refine congrArg _ ?_
  funext a; apply Fin.ext
  match a with
  | ⟨0, _⟩ => show win1_2.index t (0 : Fin 2) * 64 + 1 * k.val = k.val; omega
  | ⟨1, _⟩ => show win1_2.index t (1 : Fin 2) * 32 + 1 * j.val = j.val; omega

/-- The second layer's bias row is read whole at every tile. -/
theorem b2_tile (c : Dev nD) (t : Fin cfg1.N) (z : Fin 1) (j : Fin 32) :
    iblk1 V c 3 t (ix2 z j) = V c main_v44 (ix2 z j) := by
  obtain ⟨-, -, -, -, -, -, e0, e1, -⟩ := tile_indices t
  show V c main_v44 (((cfg1.win 3).blk t).view.emb (ix2 z j)) = V c main_v44 (ix2 z j)
  refine congrArg _ ?_
  funext a; apply Fin.ext
  match a with
  | ⟨0, _⟩ => show win1_3.index t (0 : Fin 2) * 1 + 1 * z.val = z.val; omega
  | ⟨1, _⟩ => show win1_3.index t (1 : Fin 2) * 32 + 1 * j.val = j.val; omega

/-- The second layer's root weights are read whole at every tile. -/
theorem w2r_tile (c : Dev nD) (t : Fin cfg1.N) (k : Fin 64) (j : Fin 32) :
    iblk1 V c 4 t (ix2 k j) = V c main_arg7 (ix2 k j) := by
  obtain ⟨-, -, -, -, -, -, -, -, e0, e1, -⟩ := tile_indices t
  show V c main_arg7 (((cfg1.win 4).blk t).view.emb (ix2 k j)) = V c main_arg7 (ix2 k j)
  refine congrArg _ ?_
  funext a; apply Fin.ext
  match a with
  | ⟨0, _⟩ => show win1_4.index t (0 : Fin 2) * 64 + 1 * k.val = k.val; omega
  | ⟨1, _⟩ => show win1_4.index t (1 : Fin 2) * 32 + 1 * j.val = j.val; omega

/-- The dense layer's weights are read whole at every tile. -/
theorem wh1_tile (c : Dev nD) (t : Fin cfg1.N) (j : Fin 32) (i : Fin 16) :
    iblk1 V c 5 t (ix2 j i) = V c main_arg8 (ix2 j i) := by
  obtain ⟨-, -, -, -, -, -, -, -, -, -, e0, e1, -⟩ := tile_indices t
  show V c main_arg8 (((cfg1.win 5).blk t).view.emb (ix2 j i)) = V c main_arg8 (ix2 j i)
  refine congrArg _ ?_
  funext a; apply Fin.ext
  match a with
  | ⟨0, _⟩ => show win1_5.index t (0 : Fin 2) * 32 + 1 * j.val = j.val; omega
  | ⟨1, _⟩ => show win1_5.index t (1 : Fin 2) * 16 + 1 * i.val = i.val; omega

/-- The dense layer's bias row is read whole at every tile. -/
theorem bh1_tile (c : Dev nD) (t : Fin cfg1.N) (z : Fin 1) (i : Fin 16) :
    iblk1 V c 6 t (ix2 z i) = V c main_v45 (ix2 z i) := by
  obtain ⟨-, -, -, -, -, -, -, -, -, -, -, -, e0, e1, -⟩ := tile_indices t
  show V c main_v45 (((cfg1.win 6).blk t).view.emb (ix2 z i)) = V c main_v45 (ix2 z i)
  refine congrArg _ ?_
  funext a; apply Fin.ext
  match a with
  | ⟨0, _⟩ => show win1_6.index t (0 : Fin 2) * 1 + 1 * z.val = z.val; omega
  | ⟨1, _⟩ => show win1_6.index t (1 : Fin 2) * 16 + 1 * i.val = i.val; omega

/-- The output unit's weights are read whole at every tile. -/
theorem wh2_tile (c : Dev nD) (t : Fin cfg1.N) (i : Fin 16) (z : Fin 1) :
    iblk1 V c 7 t (ix2 i z) = V c main_arg10 (ix2 i z) := by
  obtain ⟨-, -, -, -, -, -, -, -, -, -, -, -, -, -, e0, e1, -⟩ := tile_indices t
  show V c main_arg10 (((cfg1.win 7).blk t).view.emb (ix2 i z)) = V c main_arg10 (ix2 i z)
  refine congrArg _ ?_
  funext a; apply Fin.ext
  match a with
  | ⟨0, _⟩ => show win1_7.index t (0 : Fin 2) * 16 + 1 * i.val = i.val; omega
  | ⟨1, _⟩ => show win1_7.index t (1 : Fin 2) * 1 + 1 * z.val = z.val; omega

/-- The output unit's bias is read whole at every tile. -/
theorem bh2_tile (c : Dev nD) (t : Fin cfg1.N) (z z' : Fin 1) :
    iblk1 V c 8 t (ix2 z z') = V c main_v46 (ix2 z z') := by
  obtain ⟨-, -, -, -, -, -, -, -, -, -, -, -, -, -, -, -, e0, e1, -⟩ := tile_indices t
  show V c main_v46 (((cfg1.win 8).blk t).view.emb (ix2 z z')) = V c main_v46 (ix2 z z')
  refine congrArg _ ?_
  funext a; apply Fin.ext
  match a with
  | ⟨0, _⟩ => show win1_8.index t (0 : Fin 2) * 1 + 1 * z.val = z.val; omega
  | ⟨1, _⟩ => show win1_8.index t (1 : Fin 2) * 1 + 1 * z'.val = z'.val; omega

/-- Entry `(r, z)` of the output's tile `t` sits at row `10000·t + r` of the output array. -/
theorem out_tile_index (t : Fin cfg1.N) (r : Fin 10000) (z : Fin 1) (h : 10000 * t.val + r.val < 100000) :
    ((cfg1.win 9).blk t).view.emb (ix2 r z) = (ix2 ⟨10000 * t.val + r.val, h⟩ z : S100000x1.Idx) := by
  obtain ⟨-, -, -, -, -, -, -, -, -, -, -, -, -, -, -, -, -, -, e0, e1⟩ := tile_indices t
  funext a; apply Fin.ext
  match a with
  | ⟨0, _⟩ => show win1_9.index t (0 : Fin 2) * 10000 + 1 * r.val = 10000 * t.val + r.val; omega
  | ⟨1, _⟩ => show win1_9.index t (1 : Fin 2) * 1 + 1 * z.val = z.val; omega

/-- A bias vector of 32 entries laid out as one row reads its own entries. -/
theorem row32_apply (x : (⟨S32, .f32⟩ : BufTy).Contents (Elt Ideal)) (z : Fin 1) (j : Fin 32) :
    @shapeCast S32 (Elt Ideal .f32) S1x32 x shapeCasts_S32_S1x32 (ix2 z j) = x (ix1 j) :=
  shapeCast_apply x shapeCasts_S32_S1x32 (ix2 z j) (ix1 j)
    (by rw [Shape.rowMajor_val_one, Shape.rowMajor_val_two]; show j.val = z.val * 32 + j.val; omega)

/-- A bias vector of 16 entries laid out as one row reads its own entries. -/
theorem row16_apply (x : (⟨S16, .f32⟩ : BufTy).Contents (Elt Ideal)) (z : Fin 1) (i : Fin 16) :
    @shapeCast S16 (Elt Ideal .f32) S1x16 x shapeCasts_S16_S1x16 (ix2 z i) = x (ix1 i) :=
  shapeCast_apply x shapeCasts_S16_S1x16 (ix2 z i) (ix1 i)
    (by rw [Shape.rowMajor_val_one, Shape.rowMajor_val_two]; show i.val = z.val * 16 + i.val; omega)

/-- A single bias laid out as a 1×1 matrix reads its one entry. -/
theorem row1_apply (x : (⟨S1, .f32⟩ : BufTy).Contents (Elt Ideal)) (z z' z'' : Fin 1) :
    @shapeCast S1 (Elt Ideal .f32) S1x1 x shapeCasts_S1_S1x1 (ix2 z z') = x (ix1 z'') :=
  shapeCast_apply x shapeCasts_S1_S1x1 (ix2 z z') (ix1 z'')
    (by rw [Shape.rowMajor_val_one, Shape.rowMajor_val_two]; show z''.val = z.val * 1 + z'.val; omega)

/-- The head's value depends only on its nine arguments. -/
theorem headAt_congr {a a' h h' : Fin 64 → EReal} {w2l w2l' w2r w2r' : Fin 64 → Fin 32 → EReal} {b2 b2' : Fin 32 → EReal}
    {wh1 wh1' : Fin 32 → Fin 16 → EReal} {bh1 bh1' : Fin 16 → EReal} {wh2 wh2' : Fin 16 → EReal} {bh2 bh2' : EReal}
    (e1 : a = a') (e2 : h = h') (e3 : w2l = w2l') (e4 : w2r = w2r') (e5 : b2 = b2') (e6 : wh1 = wh1') (e7 : bh1 = bh1')
    (e8 : wh2 = wh2') (e9 : bh2 = bh2') :
    SageSpec.headAt a h w2l w2r b2 wh1 bh1 wh2 bh2 = SageSpec.headAt a' h' w2l' w2r' b2' wh1' bh1' wh2' bh2' := by
  subst e1 e2 e3 e4 e5 e6 e7 e8 e9; rfl

/-- A stored tile that agrees entry by entry with a function of the whole output array is that function's tile `t`. -/
theorem tile_eq_read (t : Fin cfg1.N) (P : Vec Ideal S10000x1 .f32)
    (G : (⟨S100000x1, .f32⟩ : BufTy).Contents (Elt Ideal))
    (h : ∀ (r : Fin 10000) (z : Fin 1), P (ix2 r z) = G (((cfg1.win 9).blk t).view.emb (ix2 r z))) :
    (cfg1.win 9).cut (grid1.coords t) P = ((cfg1.win 9).blk t).view.read (Elt Ideal) G := by
  funext y
  obtain ⟨r, z, rfl⟩ : ∃ (r : Fin 10000) (z : Fin 1), y = ix2 r z := ⟨y 0, y 1, eq_ix2 y⟩
  exact h r z

/-- Entry `(r, 0)` of what tile `t` stores is the reference's output at node `10000·t + r`. -/
theorem stored_entry (c : Dev nD)
    (x0 : (⟨S100000x8, .f32⟩ : BufTy).Contents (Elt Ideal)) (x1 : (⟨S2x3200000, .i32⟩ : BufTy).Contents (Elt Ideal)) (x2 : (⟨S8x64, .f32⟩ : BufTy).Contents (Elt Ideal))
    (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal))
    (x7 : (⟨S64x32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal))
    (x11 : (⟨S1, .f32⟩ : BufTy).Contents (Elt Ideal))
    (hA : V c main_v43 = Cert.ReferenceIdeal.Read.val_main_v46 (F := Ideal) x0 x1 x2 x3 x4)
    (hH : V c main_v24 = Cert.ReferenceIdeal.Read.val_main_v28 (F := Ideal) x0 x1 x2 x3 x4)
    (h2 : V c main_arg5 = x5) (h3 : V c main_v44 = shapeCast S1x32 x6 shapeCasts_S32_S1x32)
    (h4 : V c main_arg7 = x7) (h5 : V c main_arg8 = x8)
    (h6 : V c main_v45 = shapeCast S1x16 x9 shapeCasts_S16_S1x16) (h7 : V c main_arg10 = x10)
    (h8 : V c main_v46 = shapeCast S1x1 x11 shapeCasts_S1_S1x1) (t : Fin cfg1.N) (r : Fin 10000) (z : Fin 1) :
    k1_pay1 (F := Ideal) (k1_pay2 (iblk1 V c 0 t) (iblk1 V c 1 t) (iblk1 V c 2 t) (iblk1 V c 4 t) (iblk1 V c 3 t)
        (iblk1 V c 5 t) (iblk1 V c 6 t) (iblk1 V c 7 t)) (k1_pay3 (iblk1 V c 8 t)) (ix2 r z)
      = Cert.ReferenceIdeal.Read.val_main_v68 (F := Ideal) x0 x1 x2 x3 x4 x5 x6 x7 x8 x9 x10 x11
          (((cfg1.win 9).blk t).view.emb (ix2 r z)) := by
  obtain rfl : z = 0 := Subsingleton.elim _ _
  have ht : t.val < 10 := t.isLt
  have hr : 10000 * t.val + r.val < 100000 := by have := r.isLt; omega
  rw [out_tile_index t r 0 hr, Cert.KernelIdeal.Head.pay_apply, Cert.ReferenceIdeal.Head.out_apply]
  refine headAt_congr (funext fun k => ?_) (funext fun k => ?_) (funext fun k => funext fun j => ?_)
    (funext fun k => funext fun j => ?_) (funext fun j => ?_) (funext fun j => funext fun i => ?_) (funext fun i => ?_)
    (funext fun i => ?_) ?_
  · rw [agg_tile V c t r k hr, hA]
  · rw [hid_tile V c t r k hr, hH]
  · rw [w2l_tile, h2]
  · rw [w2r_tile, h4]
  · rw [b2_tile, h3]; exact row32_apply x6 0 j
  · rw [wh1_tile, h5]
  · rw [bh1_tile, h6]; exact row16_apply x9 0 i
  · rw [wh2_tile, h7]
  · rw [bh2_tile, h8]; exact row1_apply x11 0 0 0

/-- What tile `t` writes back is tile `t` of the reference's output column. -/
theorem flushed_tile (c : Dev nD)
    (x0 : (⟨S100000x8, .f32⟩ : BufTy).Contents (Elt Ideal)) (x1 : (⟨S2x3200000, .i32⟩ : BufTy).Contents (Elt Ideal)) (x2 : (⟨S8x64, .f32⟩ : BufTy).Contents (Elt Ideal))
    (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal))
    (x7 : (⟨S64x32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal))
    (x11 : (⟨S1, .f32⟩ : BufTy).Contents (Elt Ideal))
    (hA : V c main_v43 = Cert.ReferenceIdeal.Read.val_main_v46 (F := Ideal) x0 x1 x2 x3 x4)
    (hH : V c main_v24 = Cert.ReferenceIdeal.Read.val_main_v28 (F := Ideal) x0 x1 x2 x3 x4)
    (h2 : V c main_arg5 = x5) (h3 : V c main_v44 = shapeCast S1x32 x6 shapeCasts_S32_S1x32)
    (h4 : V c main_arg7 = x7) (h5 : V c main_arg8 = x8)
    (h6 : V c main_v45 = shapeCast S1x16 x9 shapeCasts_S16_S1x16) (h7 : V c main_arg10 = x10)
    (h8 : V c main_v46 = shapeCast S1x1 x11 shapeCasts_S1_S1x1) (t : Fin cfg1.N) :
    (dat1 (F := Ideal) V c).flushed 9 t
      = ((cfg1.win 9).blk t).view.read (Elt Ideal)
          (Cert.ReferenceIdeal.Read.val_main_v68 (F := Ideal) x0 x1 x2 x3 x4 x5 x6 x7 x8 x9 x10 x11) := by
  show (cfg1.win 9).cut (grid1.coords t) ((dat1 V c).after 9 t) = _
  rw [after1_9]
  unfold out1_9
  rw [View.canon_unit_zero zero_offsets]
  simp only [View.ld_unit_zero (S := S10000x64) zero_offsets, View.ld_unit_zero (S := S64x32) zero_offsets,
    View.ld_unit_zero (S := S1x32) zero_offsets, View.ld_unit_zero (S := S32x16) zero_offsets,
    View.ld_unit_zero (S := S1x16) zero_offsets, View.ld_unit_zero (S := S16x1) zero_offsets,
    View.ld_unit_zero (S := S1x1) zero_offsets]
  exact tile_eq_read t _ _ (fun r z => stored_entry V c x0 x1 x2 x3 x4 x5 x6 x7 x8 x9 x10 x11 hA hH h2 h3 h4 h5 h6 h7 h8 t r z)

/-- A node's output entry is in tile `t` iff its row lies among the tile's 10,000 rows (and its column is the one column). -/
theorem mem_tile (t : Fin cfg1.N) (i : S100000x1.Idx) :
    i ∈ ((cfg1.win 9).blk t).view.set ↔ ∀ a : Fin 2, win1_9.index t a * S10000x1.size a ≤ (i a).val
      ∧ (i a).val < win1_9.index t a * S10000x1.size a + S10000x1.size a := by
  show i ∈ ((View.whole main_v47).slice (win1_9.rect t)).set ↔ _
  rw [View.set_slice_whole, Rect.mem_set_unit]
  exact Iff.rfl

/-- Every entry of the output array is in the tile of its row's quotient by 10,000, and every tile is written back. -/
theorem covered (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hq : (i 0).val / 10000 < 10 := by omega
  obtain ⟨t, ht⟩ : ∃ t : Fin cfg1.N, t.val = (i 0).val / 10000 := ⟨⟨(i 0).val / 10000, hq⟩, rfl⟩
  obtain ⟨-, -, -, -, -, -, -, -, -, -, -, -, -, -, -, -, -, -, e0, e1⟩ := tile_indices t
  refine ⟨t, flush1_9 t, ?_⟩
  rw [mem_tile]
  intro a
  match a with
  | ⟨0, _⟩ =>
    show win1_9.index t (0 : Fin 2) * 10000 ≤ (i 0).val ∧ (i 0).val < win1_9.index t (0 : Fin 2) * 10000 + 10000
    omega
  | ⟨1, _⟩ =>
    show win1_9.index t (1 : Fin 2) * 1 ≤ (i 1).val ∧ (i 1).val < win1_9.index t (1 : Fin 2) * 1 + 1
    omega

/-- The second launch's output array, from what the launch finds in its nine input arrays: the reference's output
    column before its final reshape. -/
theorem region1_array (c : Dev nD)
    (x0 : (⟨S100000x8, .f32⟩ : BufTy).Contents (Elt Ideal)) (x1 : (⟨S2x3200000, .i32⟩ : BufTy).Contents (Elt Ideal)) (x2 : (⟨S8x64, .f32⟩ : BufTy).Contents (Elt Ideal))
    (x3 : (⟨S64, .f32⟩ : BufTy).Contents (Elt Ideal)) (x4 : (⟨S8x64, .f32⟩ : BufTy).Contents (Elt Ideal)) (x5 : (⟨S64x32, .f32⟩ : BufTy).Contents (Elt Ideal)) (x6 : (⟨S32, .f32⟩ : BufTy).Contents (Elt Ideal))
    (x7 : (⟨S64x32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal))
    (x11 : (⟨S1, .f32⟩ : BufTy).Contents (Elt Ideal))
    (hA : V c main_v43 = Cert.ReferenceIdeal.Read.val_main_v46 (F := Ideal) x0 x1 x2 x3 x4)
    (hH : V c main_v24 = Cert.ReferenceIdeal.Read.val_main_v28 (F := Ideal) x0 x1 x2 x3 x4)
    (h2 : V c main_arg5 = x5) (h3 : V c main_v44 = shapeCast S1x32 x6 shapeCasts_S32_S1x32)
    (h4 : V c main_arg7 = x7) (h5 : V c main_arg8 = x8)
    (h6 : V c main_v45 = shapeCast S1x16 x9 shapeCasts_S16_S1x16) (h7 : V c main_arg10 = x10)
    (h8 : V c main_v46 = shapeCast S1x1 x11 shapeCasts_S1_S1x1) :
    (dat1 (F := Ideal) V c).arrAt 9 cfg1.N
      = Cert.ReferenceIdeal.Read.val_main_v68 (F := Ideal) x0 x1 x2 x3 x4 x5 x6 x7 x8 x9 x10 x11 := by
  exact (dat1 (F := Ideal) V c).arrAt_eq_of_cover 9 _
    (fun t _ => flushed_tile V c x0 x1 x2 x3 x4 x5 x6 x7 x8 x9 x10 x11 hA hH h2 h3 h4 h5 h6 h7 h8 t) covered

end Cert.KernelIdeal.Tiles1

end
-- ==== Proof.KernelValue.lean ====
/-
  The kernel program's result, stage by stage. Its @main is three stretches of host arithmetic around two launches;
  the buffer contents at each boundary are a fold over the launch memory. Read at the buffers that matter:
  before the first launch the aggregated node features are the reference's first quotient stage; the first launch
  leaves the reference's rectified first layer; the second stretch aggregates it into the reference's second
  quotient stage; the second launch leaves the reference's output column; the last stretch reshapes it to a vector.
  So the result buffer ends at the reference's result stage of the same twelve arguments.
-/
import proofs.«146979_j84439057039711_1_alg».proof.Proof.KernelRun
import proofs.«146979_j84439057039711_1_alg».proof.Proof.KernelChain
import proofs.«146979_j84439057039711_1_alg».proof.Proof.AggBridge
import proofs.«146979_j84439057039711_1_alg».proof.Proof.Tiles0
import proofs.«146979_j84439057039711_1_alg».proof.Proof.Tiles1
import proofs.«146979_j84439057039711_1_alg».proof.Proof.Gen.ReferenceIdeal.Read
import Idealize.ShloMosaic.Lib.StableHlo.Run
import Idealize.ShloMosaic.PureOps.Ideal

set_option maxRecDepth 16384

noncomputable section

namespace Cert.KernelIdeal.Stitch

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first launch -/

/-- The first launch finds the mean of each node's incoming neighbours' features in its first window's array. -/
theorem entry0_agg (c : Dev nD) : V1 m ρ c main_v22 = Chain.agg8 (F := Ideal) (m ((c.tc : Thread nD τ).loc main_arg0)) (m ((c.tc : Thread nD τ).loc main_arg1)) := by
  show StableHlo.after hostOps0 (W0 m ρ c) (Proc.devRef .tc main_v22) = _
  after_results_simp
  rfl

/-- … the bias as a one-row matrix … -/
theorem entry0_bias (c : Dev nD) : V1 m ρ c main_v23 = shapeCast S1x64 (m ((c.tc : Thread nD τ).loc main_arg3)) shapeCasts_S64_S1x64 := by
  show StableHlo.after hostOps0 (W0 m ρ c) (Proc.devRef .tc main_v23) = _
  after_results_simp
  rfl

/-- … and the node features and the two weight matrices as launched. -/
theorem entry0_arg0 (c : Dev nD) : V1 m ρ c main_arg0 = (m ((c.tc : Thread nD τ).loc main_arg0)) := by
  show StableHlo.after hostOps0 (W0 m ρ c) (Proc.devRef .tc main_arg0) = _
  after_results_simp <;> rfl
theorem entry0_arg2 (c : Dev nD) : V1 m ρ c main_arg2 = (m ((c.tc : Thread nD τ).loc main_arg2)) := by
  show StableHlo.after hostOps0 (W0 m ρ c) (Proc.devRef .tc main_arg2) = _
  after_results_simp <;> rfl
theorem entry0_arg4 (c : Dev nD) : V1 m ρ c main_arg4 = (m ((c.tc : Thread nD τ).loc main_arg4)) := by
  show StableHlo.after hostOps0 (W0 m ρ c) (Proc.devRef .tc main_arg4) = _
  after_results_simp <;> rfl

/-! ## After the first launch -/

/-- The hidden features: the first launch's output array is the reference's rectified first layer. -/
theorem hidden (c : Dev nD) : W2 m ρ c (Proc.devRef .tc main_v24)
    = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans (Tiles0.region0_array (V1 m ρ) c _ _ _ _ _
    ((entry0_agg m ρ c).trans (Cert.AggBridge.agg8_eq _ _)) (entry0_arg0 m ρ c) (entry0_arg2 m ρ c)
    (entry0_bias m ρ c) (entry0_arg4 m ρ c))

/-! ## Between the launches -/

/-- The mean aggregation of 64-column features over edge endpoints given as two vectors: the second stretch's
    arithmetic, with what it reads from earlier buffers as arguments. -/
def agg64Of {F : FTy → Type} [FloatOps F] (h : (⟨S100000x64, .f32⟩ : BufTy).Contents (Elt F)) (s d : (⟨S3200000, .i32⟩ : BufTy).Contents (Elt F)) : (⟨S100000x64, .f32⟩ : BufTy).Contents (Elt F) :=
  Host.divf
    (Host.scatterAdd scatter_S100000x64_S3200000x1_S3200000x64_1_0_0_1
      (broadcastInDim S100000x64 ![] bcast_S_S100000x64 (constant S_ .f32 0x00000000#32))
      (broadcastInDim S3200000x1 ![0] bcast_S3200000_S3200000x1_0 d)
      (Host.gather gather_S100000x64_S3200000x1_S3200000x64_1_0_n_n_0_1_164 h
        (broadcastInDim S3200000x1 ![0] bcast_S3200000_S3200000x1_0
          (select (cmpi .slt s (broadcastInDim S3200000 ![] bcast_S_S3200000 (constantI S_ 32 0#32)))
            (addi s (broadcastInDim S3200000 ![] bcast_S_S3200000 (constantI S_ 32 100000#32))) s))))
    (broadcastInDim S100000x64 ![0, 1] bcast_S100000x1_S100000x64_0_1
      (broadcastInDim S100000x1 ![0] bcast_S100000_S100000x1_0
        (maximumf
          (Host.scatterAdd scatter_S100000_S3200000x1_S3200000_n_0_0_1
            (broadcastInDim S100000 ![] bcast_S_S100000 (constant S_ .f32 0x00000000#32))
            (broadcastInDim S3200000x1 ![0] bcast_S3200000_S3200000x1_0 d)
            (broadcastInDim S3200000 ![] bcast_S_S3200000 (constant S_ .f32 0x3F800000#32)))
          (broadcastInDim S100000 ![] bcast_S_S100000 (constant S_ .f32 0x3F800000#32)))))

/-- Over the two rows of the edge list it is the named aggregation. -/
theorem agg64Of_rows (h : (⟨S100000x64, .f32⟩ : BufTy).Contents (Elt Ideal)) (x1 : (⟨S2x3200000, .i32⟩ : BufTy).Contents (Elt Ideal)) :
    agg64Of (F := Ideal) h (Chain.src (F := Ideal) x1) (Chain.dst (F := Ideal) x1) = Chain.agg64 (F := Ideal) h x1 := rfl

/-- The second stretch from ANY contents: its aggregation reads the hidden features and the two endpoint vectors. -/
theorem after1_agg (W : Valuation τ sig (Elt Ideal)) :
    StableHlo.after hostOps1 W (Proc.devRef .tc main_v43)
      = agg64Of (F := Ideal) (W (Proc.devRef .tc main_v24)) (W (Proc.devRef .tc main_v1)) (W (Proc.devRef .tc main_v3)) := by
  after_results_simp
  rfl

/-- The endpoint vectors the first stretch left are untouched by the first launch. -/
theorem mid_src (c : Dev nD) : W2 m ρ c (Proc.devRef .tc main_v1) = Chain.src (F := Ideal) (m ((c.tc : Thread nD τ).loc main_arg1)) :=
  (W2_of_ne m ρ c main_v1 (by decide)).trans (by
    show StableHlo.after hostOps0 (W0 m ρ c) (Proc.devRef .tc main_v1) = _
    after_results_simp
    rfl)
theorem mid_dst (c : Dev nD) : W2 m ρ c (Proc.devRef .tc main_v3) = Chain.dst (F := Ideal) (m ((c.tc : Thread nD τ).loc main_arg1)) :=
  (W2_of_ne m ρ c main_v3 (by decide)).trans (by
    show StableHlo.after hostOps0 (W0 m ρ c) (Proc.devRef .tc main_v3) = _
    after_results_simp
    rfl)

/-- The second launch finds the mean of each node's incoming neighbours' hidden features in its first window's array: the
    reference's second quotient stage. -/
theorem entry1_agg (c : Dev nD) : V3 m ρ c main_v43
    = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (after1_agg (W2 m ρ c)).trans ?_
  rw [hidden m ρ c, mid_src m ρ c, mid_dst m ρ c, agg64Of_rows]
  exact Cert.AggBridge.agg64_eq _ _ _ _ _

/-- The second stretch leaves the hidden features and the later weight matrices as it finds them … -/
theorem after1_keep_hidden (W : Valuation τ sig (Elt Ideal)) :
    StableHlo.after hostOps1 W (Proc.devRef .tc main_v24) = W (Proc.devRef .tc main_v24) := by
  after_results_simp <;> rfl
theorem after1_keep_arg5 (W : Valuation τ sig (Elt Ideal)) :
    StableHlo.after hostOps1 W (Proc.devRef .tc main_arg5) = W (Proc.devRef .tc main_arg5) := by
  after_results_simp <;> rfl
theorem after1_keep_arg7 (W : Valuation τ sig (Elt Ideal)) :
    StableHlo.after hostOps1 W (Proc.devRef .tc main_arg7) = W (Proc.devRef .tc main_arg7) := by
  after_results_simp <;> rfl
theorem after1_keep_arg8 (W : Valuation τ sig (Elt Ideal)) :
    StableHlo.after hostOps1 W (Proc.devRef .tc main_arg8) = W (Proc.devRef .tc main_arg8) := by
  after_results_simp <;> rfl
theorem after1_keep_arg10 (W : Valuation τ sig (Elt Ideal)) :
    StableHlo.after hostOps1 W (Proc.devRef .tc main_arg10) = W (Proc.devRef .tc main_arg10) := by
  after_results_simp <;> rfl

/-- … and lays each later bias out as a one-row matrix. -/
theorem after1_bias2 (W : Valuation τ sig (Elt Ideal)) :
    StableHlo.after hostOps1 W (Proc.devRef .tc main_v44) = shapeCast S1x32 (W (Proc.devRef .tc main_arg6)) shapeCasts_S32_S1x32 := by
  after_results_simp
  rfl
theorem after1_biasH1 (W : Valuation τ sig (Elt Ideal)) :
    StableHlo.after hostOps1 W (Proc.devRef .tc main_v45) = shapeCast S1x16 (W (Proc.devRef .tc main_arg9)) shapeCasts_S16_S1x16 := by
  after_results_simp
  rfl
theorem after1_biasH2 (W : Valuation τ sig (Elt Ideal)) :
    StableHlo.after hostOps1 W (Proc.devRef .tc main_v46) = shapeCast S1x1 (W (Proc.devRef .tc main_arg11)) shapeCasts_S1_S1x1 := by
  after_results_simp
  rfl

/-- The later arguments reach the second stretch as launched: neither the first stretch nor the first launch writes one. -/
theorem mid_arg5 (c : Dev nD) : W2 m ρ c (Proc.devRef .tc main_arg5) = (m ((c.tc : Thread nD τ).loc main_arg5)) :=
  (W2_of_ne m ρ c main_arg5 (by decide)).trans (by
    show StableHlo.after hostOps0 (W0 m ρ c) (Proc.devRef .tc main_arg5) = _
    after_results_simp <;> rfl)
theorem mid_arg6 (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results_simp <;> rfl)
theorem mid_arg7 (c : Dev nD) : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results_simp <;> rfl)
theorem mid_arg8 (c : Dev nD) : W2 m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results_simp <;> rfl)
theorem mid_arg9 (c : Dev nD) : W2 m ρ c (Proc.devRef .tc main_arg9) = (m ((c.tc : Thread nD τ).loc main_arg9)) :=
  (W2_of_ne m ρ c main_arg9 (by decide)).trans (by
    show StableHlo.after hostOps0 (W0 m ρ c) (Proc.devRef .tc main_arg9) = _
    after_results_simp <;> rfl)
theorem mid_arg10 (c : Dev nD) : W2 m ρ c (Proc.devRef .tc main_arg10) = (m ((c.tc : Thread nD τ).loc main_arg10)) :=
  (W2_of_ne m ρ c main_arg10 (by decide)).trans (by
    show StableHlo.after hostOps0 (W0 m ρ c) (Proc.devRef .tc main_arg10) = _
    after_results_simp <;> rfl)
theorem mid_arg11 (c : Dev nD) : W2 m ρ c (Proc.devRef .tc main_arg11) = (m ((c.tc : Thread nD τ).loc main_arg11)) :=
  (W2_of_ne m ρ c main_arg11 (by decide)).trans (by
    show StableHlo.after hostOps0 (W0 m ρ c) (Proc.devRef .tc main_arg11) = _
    after_results_simp <;> rfl)

/-! ## After the second launch -/

/-- The second launch's output array is the reference's output column. -/
theorem output_column (c : Dev nD) : W4 m ρ c (Proc.devRef .tc main_v47)
    = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W4_arr m ρ c 9).trans (Tiles1.region1_array (V3 m ρ) c _ _ _ _ _ _ _ _ _ _ _ _
    (entry1_agg m ρ c)
    ((after1_keep_hidden (W2 m ρ c)).trans (hidden m ρ c))
    ((after1_keep_arg5 (W2 m ρ c)).trans (mid_arg5 m ρ c))
    ((after1_bias2 (W2 m ρ c)).trans (congrArg (fun z => shapeCast S1x32 z shapeCasts_S32_S1x32) (mid_arg6 m ρ c)))
    ((after1_keep_arg7 (W2 m ρ c)).trans (mid_arg7 m ρ c))
    ((after1_keep_arg8 (W2 m ρ c)).trans (mid_arg8 m ρ c))
    ((after1_biasH1 (W2 m ρ c)).trans (congrArg (fun z => shapeCast S1x16 z shapeCasts_S16_S1x16) (mid_arg9 m ρ c)))
    ((after1_keep_arg10 (W2 m ρ c)).trans (mid_arg10 m ρ c))
    ((after1_biasH2 (W2 m ρ c)).trans (congrArg (fun z => shapeCast S1x1 z shapeCasts_S1_S1x1) (mid_arg11 m ρ c))))

/-! ## The result -/

/-- The last stretch reshapes the output column to a vector. -/
theorem after2_result (W : Valuation τ sig (Elt Ideal)) :
    StableHlo.after hostOps2 W (Proc.devRef .tc main_v48)
      = shapeCast S100000 (W (Proc.devRef .tc main_v47)) shapeCasts_S100000x1_S100000 := by
  after_results_simp
  rfl

/-- The result buffer ends at the reference's result stage of the twelve arguments. -/
theorem result (c : Dev nD) : W5 m ρ c (Proc.devRef .tc main_v48)
    = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (after2_result (W4 m ρ c)).trans ?_
  rw [output_column m ρ c]
  rfl

/-- Every weakly fair execution of the kernel program terminates without a fault, the arguments unchanged, its result
    the reference's result stage of the arguments. -/
theorem run : θ_run defs (onTc (τ := τ) (main (F := Ideal))) ⟨m, fun _ => 0, ρ⟩ (fun r => ∀ c : Dev nD,
      r.2.mem ((c.tc : Thread nD τ).loc main_v48)
        = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result m ρ c), (h c).2⟩) (Cert.KernelIdeal.Run.run_result m ρ)

end Cert.KernelIdeal.Stitch

end
-- ==== Proof.lean ====
/-
  A two-layer GraphSAGE network with a two-layer head, on 100,000 nodes and 3,200,000 edges: the kernel program
  computes each mean aggregation on the host (gathered source rows summed into their destination rows, each row
  divided by its incoming-edge count floored at one) and each layer's dense arithmetic in a launch tiled over ten
  row tiles of 10,000 nodes; the reference computes all of it on the host. Over the extended reals the two agree
  entry by entry, with no use of the inputs' finiteness: every matrix product is the same finite sum on both sides
  (a change of float format is the identity, a product into a zero accumulator is the plain sum), a broadcast bias
  reads its source entry, the kernel's logistic is by definition the reference's quotient 1 / (1 + exp (−x)), and the
  only difference in arrangement — the edge count scattered as a vector and widened, against scattered as a one-column
  matrix — is a bijection of summation indices. A tile of a launch's output is the same function of the arrays the
  launch finds as the reference's stage of the whole arrays, and the ten tiles cover the output.
  The three frames: the two kernel programs' are the generated frame certificates; the reference's is its generated
  run with the result dropped. The idealization's ledger is empty.
-/
import proofs.«146979_j84439057039711_1_alg».proof.Defs
import proofs.«146979_j84439057039711_1_alg».proof.Proof.Gen.Kernel
import proofs.«146979_j84439057039711_1_alg».proof.Proof.Gen.Kernel.Skeleton
import proofs.«146979_j84439057039711_1_alg».proof.Proof.Gen.Kernel.Launch
import proofs.«146979_j84439057039711_1_alg».proof.Proof.Gen.Kernel.Points
import proofs.«146979_j84439057039711_1_alg».proof.Proof.Gen.Kernel.Frame
import proofs.«146979_j84439057039711_1_alg».proof.Proof.Gen.KernelIdeal
import proofs.«146979_j84439057039711_1_alg».proof.Proof.Gen.KernelIdeal.Skeleton
import proofs.«146979_j84439057039711_1_alg».proof.Proof.Gen.KernelIdeal.Launch
import proofs.«146979_j84439057039711_1_alg».proof.Proof.Gen.KernelIdeal.Points
import proofs.«146979_j84439057039711_1_alg».proof.Proof.Gen.KernelIdeal.Frame
import proofs.«146979_j84439057039711_1_alg».proof.Proof.Gen.ReferenceIdeal
import proofs.«146979_j84439057039711_1_alg».proof.Proof.Gen.Pre_finite_inputs
import proofs.«146979_j84439057039711_1_alg».proof.Proof.Gen.ReferenceIdeal.Run
import proofs.«146979_j84439057039711_1_alg».proof.Proof.Gen.ReferenceIdeal.Read
import proofs.«146979_j84439057039711_1_alg».proof.Proof.KernelValue
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the twelve arguments both programs end with the reference's result stage of those
    arguments in their result buffers. -/
theorem algebraic : Cert.algebraic_KernelIdeal_ReferenceIdeal := by
  intro m ρ m' ρ' _ hagree
  refine ⟨_, Cert.KernelIdeal.Stitch.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v69_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
